-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S256 : Shape := ⟨1, ![256]⟩
abbrev S36 : Shape := ⟨1, ![36]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S256x3x224x224 .f32) (main_arg1 : IVec S256 32) (main_arg2 : IVec S36 32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_c_0 : IVec S_ 32 := constantI S_ 32 0#32
  let main_v4 : IVec S256 32 := broadcastInDim S256 ![] bcast_S_S256 main_c_0
  let main_v5 : IVec S256 1 := cmpi .sge main_arg1 main_v4
  let main_c_1 : IVec S_ 1 := constantI S_ 1 1#1
  let main_v6 : IVec S_ 1 := (fun x v => Host.reduce IntOp.andi x v reducesTo_S256_S_d0 h_S_) main_v5 main_c_1
  let main_v7 : IVec S_ 1 := andi main_v3 main_v6
  let main_c_2 : IVec S_ 32 := constantI S_ 32 36#32
  let main_v8 : IVec S256 32 := broadcastInDim S256 ![] bcast_S_S256 main_c_2
  let main_v9 : IVec S256 1 := cmpi .slt main_arg1 main_v8
  let main_c_3 : IVec S_ 1 := constantI S_ 1 1#1
  let main_v10 : IVec S_ 1 := (fun x v => Host.reduce IntOp.andi x v reducesTo_S256_S_d0 h_S_) main_v9 main_c_3
  let main_v11 : IVec S_ 1 := andi main_v7 main_v10
  main_v11
-- ==== Kernel.lean ====
abbrev S256x3x224x224 : Shape := ⟨4, ![256, 3, 224, 224]⟩
abbrev S256 : Shape := ⟨1, ![256]⟩
abbrev S36 : Shape := ⟨1, ![36]⟩
abbrev S_ : Shape := ⟨0, ![]⟩
abbrev S256x1 : Shape := ⟨2, ![256, 1]⟩
abbrev S256x1x1 : Shape := ⟨3, ![256, 1, 1]⟩
abbrev S256x1x128 : Shape := ⟨3, ![256, 1, 128]⟩
abbrev S256x1176x128 : Shape := ⟨3, ![256, 1176, 128]⟩
abbrev S16x1176x128 : Shape := ⟨3, ![16, 1176, 128]⟩
abbrev S16x1x128 : Shape := ⟨3, ![16, 1, 128]⟩
abbrev S16x1176 : Shape := ⟨2, ![16, 1176]⟩
abbrev S16x1176x1 : Shape := ⟨3, ![16, 1176, 1]⟩
abbrev S16x1 : Shape := ⟨2, ![16, 1]⟩
abbrev S16x1x1 : Shape := ⟨3, ![16, 1, 1]⟩

abbrev nBuf : Space → Nat
  | .hbm => 162
  | .vmem => 14
  | .smem => 0
  | _ => 0

abbrev hbmTy0_0 (i : Nat) : BufTy := match i % 128 with
  | 0 => ⟨S256x3x224x224, .f32⟩
  | 1 => ⟨S256, .i32⟩
  | 2 => ⟨S36, .i32⟩
  | 3 => ⟨S_, .i32⟩
  | 4 => ⟨S_, .i32⟩
  | 5 => ⟨S256, .i32⟩
  | 6 => ⟨S256, .i32⟩
  | 7 => ⟨S256, .i32⟩
  | 8 => ⟨S_, .i32⟩
  | 9 => ⟨S256, .i32⟩
  | 10 => ⟨S256, .i1⟩
  | 11 => ⟨S256, .i32⟩
  | 12 => ⟨S256, .i32⟩
  | 13 => ⟨S_, .i32⟩
  | 14 => ⟨S256, .i32⟩
  | 15 => ⟨S256, .i1⟩
  | 16 => ⟨S256, .i1⟩
  | 17 => ⟨S_, .i32⟩
  | 18 => ⟨S256, .i32⟩
  | 19 => ⟨S256, .i32⟩
  | 20 => ⟨S256, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S256, .i32⟩
  | 28 => ⟨S256, .i32⟩
  | 29 => ⟨S_, .i32⟩
  | 30 => ⟨S256, .i32⟩
  | 31 => ⟨S256, .i1⟩
  | 32 => ⟨S_, .i32⟩
  | 33 => ⟨S256, .i32⟩
  | 34 => ⟨S256, .i1⟩
  | 35 => ⟨S_, .i32⟩
  | 36 => ⟨S_, .i1⟩
  | 37 => ⟨S256, .i1⟩
  | 38 => ⟨S256, .i1⟩
  | 39 => ⟨S256, .i1⟩
  | 40 => ⟨S256, .i32⟩
  | 41 => ⟨S256, .i32⟩
  | 42 => ⟨S256, .i32⟩
  | 43 => ⟨S_, .i32⟩
  | 44 => ⟨S256, .i32⟩
  | 45 => ⟨S256, .i32⟩
  | 46 => ⟨S256, .f32⟩
  | 47 => ⟨S_, .f32⟩
  | 48 => ⟨S256, .f32⟩
  | 49 => ⟨S256, .f32⟩
  | 50 => ⟨S_, .i32⟩
  | 51 => ⟨S256, .i32⟩
  | 52 => ⟨S256, .i1⟩
  | 53 => ⟨S_, .i32⟩
  | 54 => ⟨S256, .i32⟩
  | 55 => ⟨S256, .i32⟩
  | 56 => ⟨S256, .i32⟩
  | 57 => ⟨S256x1, .i32⟩
  | 58 => ⟨S256, .i32⟩
  | 59 => ⟨S_, .i32⟩
  | 60 => ⟨S256, .i32⟩
  | 61 => ⟨S256, .i1⟩
  | 62 => ⟨S_, .f32⟩
  | 63 => ⟨S256, .f32⟩
  | 64 => ⟨S_, .f32⟩
  | 65 => ⟨S256, .f32⟩
  | 66 => ⟨S_, .f32⟩
  | 67 => ⟨S256, .f32⟩
  | 68 => ⟨S256, .f32⟩
  | 69 => ⟨S256, .f32⟩
  | 70 => ⟨S_, .f32⟩
  | 71 => ⟨S256, .f32⟩
  | 72 => ⟨S256, .f32⟩
  | 73 => ⟨S_, .f32⟩
  | 74 => ⟨S256, .f32⟩
  | 75 => ⟨S256, .f32⟩
  | 76 => ⟨S_, .f32⟩
  | 77 => ⟨S256, .f32⟩
  | 78 => ⟨S256, .f32⟩
  | 79 => ⟨S_, .i32⟩
  | 80 => ⟨S256, .i32⟩
  | 81 => ⟨S256, .i1⟩
  | 82 => ⟨S_, .i32⟩
  | 83 => ⟨S256, .i32⟩
  | 84 => ⟨S256, .i1⟩
  | 85 => ⟨S_, .i32⟩
  | 86 => ⟨S256, .i32⟩
  | 87 => ⟨S256, .i1⟩
  | 88 => ⟨S256, .f32⟩
  | 89 => ⟨S256, .f32⟩
  | 90 => ⟨S256, .f32⟩
  | 91 => ⟨S_, .i32⟩
  | 92 => ⟨S256, .i32⟩
  | 93 => ⟨S256, .i1⟩
  | 94 => ⟨S_, .i32⟩
  | 95 => ⟨S256, .i32⟩
  | 96 => ⟨S256, .i1⟩
  | 97 => ⟨S_, .i32⟩
  | 98 => ⟨S256, .i32⟩
  | 99 => ⟨S256, .i1⟩
  | 100 => ⟨S256, .f32⟩
  | 101 => ⟨S256, .f32⟩
  | 102 => ⟨S256, .f32⟩
  | 103 => ⟨S_, .i32⟩
  | 104 => ⟨S256, .i32⟩
  | 105 => ⟨S256, .i1⟩
  | 106 => ⟨S_, .i32⟩
  | 107 => ⟨S256, .i32⟩
  | 108 => ⟨S256, .i1⟩
  | 109 => ⟨S_, .i32⟩
  | 110 => ⟨S256, .i32⟩
  | 111 => ⟨S256, .i1⟩
  | 112 => ⟨S256, .f32⟩
  | 113 => ⟨S256, .f32⟩
  | 114 => ⟨S256, .f32⟩
  | 115 => ⟨S_, .i32⟩
  | 116 => ⟨S256, .i32⟩
  | 117 => ⟨S256, .i1⟩
  | 118 => ⟨S_, .i32⟩
  | 119 => ⟨S256, .i32⟩
  | 120 => ⟨S256, .i1⟩
  | 121 => ⟨S_, .i32⟩
  | 122 => ⟨S256, .i32⟩
  | 123 => ⟨S256, .i1⟩
  | 124 => ⟨S256, .f32⟩
  | 125 => ⟨S256, .f32⟩
  | 126 => ⟨S256, .f32⟩
  | 127 => ⟨S256, .f32⟩
  | _ => ⟨S256x3x224x224, .f32⟩

abbrev hbmTy0_1 (i : Nat) : BufTy := match i % 128 with
  | 0 => ⟨S256, .f32⟩
  | 1 => ⟨S256, .f32⟩
  | 2 => ⟨S256, .f32⟩
  | 3 => ⟨S_, .f32⟩
  | 4 => ⟨S256, .f32⟩
  | 5 => ⟨S256, .i1⟩
  | 6 => ⟨S_, .f32⟩
  | 7 => ⟨S_, .f32⟩
  | 8 => ⟨S_, .f32⟩
  | 9 => ⟨S256, .f32⟩
  | 10 => ⟨S256, .f32⟩
  | 11 => ⟨S256, .f32⟩
  | 12 => ⟨S_, .f32⟩
  | 13 => ⟨S256, .f32⟩
  | 14 => ⟨S256, .i1⟩
  | 15 => ⟨S_, .f32⟩
  | 16 => ⟨S_, .f32⟩
  | 17 => ⟨S_, .f32⟩
  | 18 => ⟨S256, .f32⟩
  | 19 => ⟨S256, .f32⟩
  | 20 => ⟨S256, .f32⟩
  | 21 => ⟨S256x1x1, .f32⟩
  | 22 => ⟨S256x1x128, .f32⟩
  | 23 => ⟨S256x1x1, .f32⟩
  | 24 => ⟨S256x1x128, .f32⟩
  | 25 => ⟨S256x1x1, .f32⟩
  | 26 => ⟨S256x1x128, .f32⟩
  | 27 => ⟨S256x1x1, .f32⟩
  | 28 => ⟨S256x1x128, .f32⟩
  | 29 => ⟨S256x1x1, .f32⟩
  | 30 => ⟨S256x1x128, .f32⟩
  | 31 => ⟨S256x1176x128, .f32⟩
  | 32 => ⟨S256x1176x128, .f32⟩
  | 33 => ⟨S256x3x224x224, .f32⟩
  | _ => ⟨S256x3x224x224, .f32⟩

abbrev hbmTy (i : Nat) : BufTy := match i / 128 with
  | 0 => hbmTy0_0 i
  | 1 => hbmTy0_1 i
  | _ => ⟨S256x3x224x224, .f32⟩

abbrev bufTy : (tb : Table) → Fin (tcTables nBuf tb) → BufTy
  | .hbm, ⟨i, _⟩ => hbmTy i
  | .local _ .vmem, ⟨0, _⟩ => ⟨S16x1176x128, .f32⟩
  | .local _ .vmem, ⟨1, _⟩ => ⟨S16x1176x128, .f32⟩
  | .local _ .vmem, ⟨2, _⟩ => ⟨S16x1x128, .f32⟩
  | .local _ .vmem, ⟨3, _⟩ => ⟨S16x1x128, .f32⟩
  | .local _ .vmem, ⟨4, _⟩ => ⟨S16x1x128, .f32⟩
  | .local _ .vmem, ⟨5, _⟩ => ⟨S16x1x128, .f32⟩
  | .local _ .vmem, ⟨6, _⟩ => ⟨S16x1x128, .f32⟩
  | .local _ .vmem, ⟨7, _⟩ => ⟨S16x1x128, .f32⟩
  | .local _ .vmem, ⟨8, _⟩ => ⟨S16x1x128, .f32⟩
  | .local _ .vmem, ⟨9, _⟩ => ⟨S16x1x128, .f32⟩
  | .local _ .vmem, ⟨10, _⟩ => ⟨S16x1x128, .f32⟩
  | .local _ .vmem, ⟨11, _⟩ => ⟨S16x1x128, .f32⟩
  | .local _ .vmem, ⟨12, _⟩ => ⟨S16x1176x128, .f32⟩
  | .local _ .vmem, ⟨13, _⟩ => ⟨S16x1176x128, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v0 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v1 : Ref sig .tc := ⟨.hbm, 42, rfl⟩
abbrev main_c_1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst : Ref sig .tc := ⟨.hbm, 47, rfl⟩
abbrev main_v5 : Ref sig .tc := ⟨.hbm, 48, rfl⟩
abbrev main_v6 : Ref sig .tc := ⟨.hbm, 49, rfl⟩
abbrev main_c_2 : Ref sig .tc := ⟨.hbm, 50, rfl⟩
abbrev main_v7 : Ref sig .tc := ⟨.hbm, 51, rfl⟩
abbrev main_v8 : Ref sig .tc := ⟨.hbm, 52, rfl⟩
abbrev main_c_3 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_c_4 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_cst_6 : Ref sig .tc := ⟨.hbm, 64, rfl⟩
abbrev main_v17 : Ref sig .tc := ⟨.hbm, 65, rfl⟩
abbrev main_cst_7 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst_8 : Ref sig .tc := ⟨.hbm, 70, rfl⟩
abbrev main_v21 : Ref sig .tc := ⟨.hbm, 71, rfl⟩
abbrev main_v22 : Ref sig .tc := ⟨.hbm, 72, rfl⟩
abbrev main_cst_9 : Ref sig .tc := ⟨.hbm, 73, rfl⟩
abbrev main_v23 : Ref sig .tc := ⟨.hbm, 74, rfl⟩
abbrev main_v24 : Ref sig .tc := ⟨.hbm, 75, rfl⟩
abbrev main_cst_10 : Ref sig .tc := ⟨.hbm, 76, rfl⟩
abbrev main_v25 : Ref sig .tc := ⟨.hbm, 77, rfl⟩
abbrev main_v26 : Ref sig .tc := ⟨.hbm, 78, rfl⟩
abbrev main_c_11 : Ref sig .tc := ⟨.hbm, 79, rfl⟩
abbrev main_v27 : Ref sig .tc := ⟨.hbm, 80, rfl⟩
abbrev main_v28 : Ref sig .tc := ⟨.hbm, 81, rfl⟩
abbrev main_c_12 : Ref sig .tc := ⟨.hbm, 82, rfl⟩
abbrev main_v29 : Ref sig .tc := ⟨.hbm, 83, rfl⟩
abbrev main_v30 : Ref sig .tc := ⟨.hbm, 84, rfl⟩
abbrev main_c_13 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_c_14 : Ref sig .tc := ⟨.hbm, 91, rfl⟩
abbrev main_v36 : Ref sig .tc := ⟨.hbm, 92, rfl⟩
abbrev main_v37 : Ref sig .tc := ⟨.hbm, 93, rfl⟩
abbrev main_c_15 : Ref sig .tc := ⟨.hbm, 94, rfl⟩
abbrev main_v38 : Ref sig .tc := ⟨.hbm, 95, rfl⟩
abbrev main_v39 : Ref sig .tc := ⟨.hbm, 96, rfl⟩
abbrev main_c_16 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c_17 : Ref sig .tc := ⟨.hbm, 103, rfl⟩
abbrev main_v45 : Ref sig .tc := ⟨.hbm, 104, rfl⟩
abbrev main_v46 : Ref sig .tc := ⟨.hbm, 105, rfl⟩
abbrev main_c_18 : Ref sig .tc := ⟨.hbm, 106, rfl⟩
abbrev main_v47 : Ref sig .tc := ⟨.hbm, 107, rfl⟩
abbrev main_v48 : Ref sig .tc := ⟨.hbm, 108, rfl⟩
abbrev main_c_19 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_c_20 : Ref sig .tc := ⟨.hbm, 115, rfl⟩
abbrev main_v54 : Ref sig .tc := ⟨.hbm, 116, rfl⟩
abbrev main_v55 : Ref sig .tc := ⟨.hbm, 117, rfl⟩
abbrev main_c_21 : Ref sig .tc := ⟨.hbm, 118, rfl⟩
abbrev main_v56 : Ref sig .tc := ⟨.hbm, 119, rfl⟩
abbrev main_v57 : Ref sig .tc := ⟨.hbm, 120, rfl⟩
abbrev main_c_22 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_23 : Ref sig .tc := ⟨.hbm, 131, rfl⟩
abbrev main_v67 : Ref sig .tc := ⟨.hbm, 132, rfl⟩
abbrev main_v68 : Ref sig .tc := ⟨.hbm, 133, rfl⟩
abbrev main_cst_24 : Ref sig .tc := ⟨.hbm, 134, rfl⟩
abbrev main_cst_25 : Ref sig .tc := ⟨.hbm, 135, rfl⟩
abbrev main_call18_v0 : Ref sig .tc := ⟨.hbm, 136, rfl⟩
abbrev main_call18_v1 : Ref sig .tc := ⟨.hbm, 137, rfl⟩
abbrev main_call18_v2 : Ref sig .tc := ⟨.hbm, 138, rfl⟩
abbrev main_v69 : Ref sig .tc := ⟨.hbm, 139, rfl⟩
abbrev main_cst_26 : Ref sig .tc := ⟨.hbm, 140, rfl⟩
abbrev main_v70 : Ref sig .tc := ⟨.hbm, 141, rfl⟩
abbrev main_v71 : Ref sig .tc := ⟨.hbm, 142, rfl⟩
abbrev main_cst_27 : Ref sig .tc := ⟨.hbm, 143, rfl⟩
abbrev main_cst_28 : Ref sig .tc := ⟨.hbm, 144, rfl⟩
abbrev main_call19_v0 : Ref sig .tc := ⟨.hbm, 145, rfl⟩
abbrev main_call19_v1 : Ref sig .tc := ⟨.hbm, 146, rfl⟩
abbrev main_call19_v2 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  shapeCasts_S256_S256x1x1 : S256.ShapeCasts S256x1x1
  bcast_S256x1x1_S256x1x128_0_1_2 : S256x1x1.BroadcastsInDim S256x1x128 (![0, 1, 2] : Fin 3 → Fin S256x1x128.rank)
  shapeCasts_S256x3x224x224_S256x1176x128 : S256x3x224x224.ShapeCasts S256x1176x128
  inb_S16x1176x128_S16x1176x128_0_0_0 : ∀ a, (![0, 0, 0] : Fin 3 → Nat) a + S16x1176x128.size a ≤ S16x1176x128.size a
  h_S16x1176x128 : 0 < S16x1176x128.numel
  shapeCasts_S16x1176x128_S16x1176x128 : S16x1176x128.ShapeCasts S16x1176x128
  inb_S16x1x128_S16x1x128_0_0_0 : ∀ a, (![0, 0, 0] : Fin 3 → Nat) a + S16x1x128.size a ≤ S16x1x128.size a
  h_S16x1x128 : 0 < S16x1x128.numel
  shapeCasts_S16x1x128_S16x1x128 : S16x1x128.ShapeCasts S16x1x128
  reduces_S16x1176x128_S16x1176 : S16x1176x128.Reduces [2] S16x1176
  shapeCasts_S16x1176_S16x1176x1 : S16x1176.ShapeCasts S16x1176x1
  reduces_S16x1176x1_S16x1 : S16x1176x1.Reduces [1] S16x1
  shapeCasts_S16x1_S16x1x1 : S16x1.ShapeCasts S16x1x1
  broadcasts_S16x1x1_S16x1x128 : S16x1x1.Broadcasts S16x1x128
  broadcasts_S16x1x128_S16x1176x128 : S16x1x128.Broadcasts S16x1176x128
  shapeCasts_S256x1176x128_S256x3x224x224 : S256x1176x128.ShapeCasts S256x3x224x224
  gather_S36_S256x1_S256_n_0_n_n_0_1_1_wf : GatherDims.WF S36 S256x1 S256 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1176x128.size a ≤ S256x1176x128.size a
  hwx0_0 : ∀ i : grid0.Coords, EltTy.bits .f32 = 32 ∨ (Rect.block (s := S256x1176x128) S16x1176x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x128.size a ≤ S256x1x128.size a
  hwx0_1 : ∀ i : grid0.Coords, EltTy.bits .f32 = 32 ∨ (Rect.block (s := S256x1x128) S16x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x128.size a ≤ S256x1x128.size a
  hwx0_2 : ∀ i : grid0.Coords, EltTy.bits .f32 = 32 ∨ (Rect.block (s := S256x1x128) S16x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x128.size a ≤ S256x1x128.size a
  hwx0_3 : ∀ i : grid0.Coords, EltTy.bits .f32 = 32 ∨ (Rect.block (s := S256x1x128) S16x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x128.size a ≤ S256x1x128.size a
  hwx0_4 : ∀ i : grid0.Coords, EltTy.bits .f32 = 32 ∨ (Rect.block (s := S256x1x128) S16x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1x128.size a ≤ S256x1x128.size a
  hwx0_5 : ∀ i : grid0.Coords, EltTy.bits .f32 = 32 ∨ (Rect.block (s := S256x1x128) S16x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x1176x128.size a ≤ S256x1176x128.size a
  hwx0_6 : ∀ i : grid0.Coords, EltTy.bits .f32 = 32 ∨ (Rect.block (s := S256x1176x128) S16x1176x128.size (cc0_transform_6 i) (hinb0_6 i)).WholeWords (EltTy.packing .f32)

variable [Facts₀]

def gather_S36_S256x1_S256_n_0_n_n_0_1_1 : GatherDims S36 S256x1 S256 where
  offsetDims := []
  collapsedSliceDims := [0]
  operandBatchingDims := []
  startIndicesBatchingDims := []
  startIndexMap := [0]
  indexVectorDim := 1
  sliceSizes := ![1]
  wf := gather_S36_S256x1_S256_n_0_n_n_0_1_1_wf

abbrev win0_0 : Pipeline.Window sig grid0 :=
  Pipeline.Window.ofSpec (Memref.whole main_v83) S16x1176x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S16x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v76) S16x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v78) S16x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v80) S16x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v82) S16x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v84) S16x1176x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S256 : Shape := ⟨1, ![256]⟩
abbrev S36 : Shape := ⟨1, ![36]⟩
abbrev S_ : Shape := ⟨0, ![]⟩
abbrev S256x1x1x1 : Shape := ⟨4, ![256, 1, 1, 1]⟩
abbrev S256x1x3x224x224 : Shape := ⟨5, ![256, 1, 3, 224, 224]⟩
abbrev S256x4x3x224x224 : Shape := ⟨5, ![256, 4, 3, 224, 224]⟩
abbrev S256x1x1x1x1 : Shape := ⟨5, ![256, 1, 1, 1, 1]⟩
abbrev S256x1x1 : Shape := ⟨3, ![256, 1, 1]⟩
abbrev S1 : Shape := ⟨1, ![1]⟩
abbrev S1x1x1 : Shape := ⟨3, ![1, 1, 1]⟩
abbrev S256x1 : Shape := ⟨2, ![256, 1]⟩

abbrev nBuf : Space → Nat
  | .hbm => 153
  | .vmem => 0
  | .smem => 0
  | _ => 0

abbrev hbmTy0_0 (i : Nat) : BufTy := match i % 128 with
  | 0 => ⟨S256x3x224x224, .f32⟩
  | 1 => ⟨S256, .i32⟩
  | 2 => ⟨S36, .i32⟩
  | 3 => ⟨S_, .i32⟩
  | 4 => ⟨S_, .i32⟩
  | 5 => ⟨S256, .i32⟩
  | 6 => ⟨S256, .i32⟩
  | 7 => ⟨S256, .i32⟩
  | 8 => ⟨S_, .i32⟩
  | 9 => ⟨S256, .i32⟩
  | 10 => ⟨S256, .i1⟩
  | 11 => ⟨S256, .i32⟩
  | 12 => ⟨S256, .i32⟩
  | 13 => ⟨S_, .i32⟩
  | 14 => ⟨S256, .i32⟩
  | 15 => ⟨S256, .i1⟩
  | 16 => ⟨S256, .i1⟩
  | 17 => ⟨S_, .i32⟩
  | 18 => ⟨S256, .i32⟩
  | 19 => ⟨S256, .i32⟩
  | 20 => ⟨S256, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S256, .i32⟩
  | 28 => ⟨S256, .i32⟩
  | 29 => ⟨S_, .i32⟩
  | 30 => ⟨S256, .i32⟩
  | 31 => ⟨S256, .i1⟩
  | 32 => ⟨S_, .i32⟩
  | 33 => ⟨S256, .i32⟩
  | 34 => ⟨S256, .i1⟩
  | 35 => ⟨S_, .i32⟩
  | 36 => ⟨S_, .i1⟩
  | 37 => ⟨S256, .i1⟩
  | 38 => ⟨S256, .i1⟩
  | 39 => ⟨S256, .i1⟩
  | 40 => ⟨S256, .i32⟩
  | 41 => ⟨S256, .i32⟩
  | 42 => ⟨S256, .i32⟩
  | 43 => ⟨S_, .i32⟩
  | 44 => ⟨S256, .i32⟩
  | 45 => ⟨S256, .i32⟩
  | 46 => ⟨S256, .f32⟩
  | 47 => ⟨S_, .f32⟩
  | 48 => ⟨S256, .f32⟩
  | 49 => ⟨S256, .f32⟩
  | 50 => ⟨S256x1x1x1, .f32⟩
  | 51 => ⟨S_, .f32⟩
  | 52 => ⟨S256, .f32⟩
  | 53 => ⟨S256x1x1x1, .f32⟩
  | 54 => ⟨S_, .f32⟩
  | 55 => ⟨S256x1x1x1, .f32⟩
  | 56 => ⟨S256x1x1x1, .f32⟩
  | 57 => ⟨S256x3x224x224, .f32⟩
  | 58 => ⟨S256x3x224x224, .f32⟩
  | 59 => ⟨S_, .f32⟩
  | 60 => ⟨S_, .f32⟩
  | 61 => ⟨S_, .f32⟩
  | 62 => ⟨S256x3x224x224, .f32⟩
  | 63 => ⟨S256x3x224x224, .f32⟩
  | 64 => ⟨S_, .f32⟩
  | 65 => ⟨S256x3x224x224, .f32⟩
  | 66 => ⟨S256x3x224x224, .f32⟩
  | 67 => ⟨S256x3x224x224, .f32⟩
  | 68 => ⟨S256x3x224x224, .f32⟩
  | 69 => ⟨S_, .f32⟩
  | 70 => ⟨S256x1x1x1, .f32⟩
  | 71 => ⟨S256x1x1x1, .f32⟩
  | 72 => ⟨S256x3x224x224, .f32⟩
  | 73 => ⟨S256x3x224x224, .f32⟩
  | 74 => ⟨S256x3x224x224, .f32⟩
  | 75 => ⟨S256x3x224x224, .f32⟩
  | 76 => ⟨S_, .f32⟩
  | 77 => ⟨S_, .f32⟩
  | 78 => ⟨S_, .f32⟩
  | 79 => ⟨S256x3x224x224, .f32⟩
  | 80 => ⟨S256x3x224x224, .f32⟩
  | 81 => ⟨S_, .f32⟩
  | 82 => ⟨S256x3x224x224, .f32⟩
  | 83 => ⟨S256x3x224x224, .f32⟩
  | 84 => ⟨S_, .f32⟩
  | 85 => ⟨S256x1x1x1, .f32⟩
  | 86 => ⟨S256x1x1x1, .f32⟩
  | 87 => ⟨S256x3x224x224, .f32⟩
  | 88 => ⟨S256x3x224x224, .f32⟩
  | 89 => ⟨S_, .f32⟩
  | 90 => ⟨S256x3x224x224, .f32⟩
  | 91 => ⟨S256x3x224x224, .f32⟩
  | 92 => ⟨S256x3x224x224, .f32⟩
  | 93 => ⟨S256x3x224x224, .f32⟩
  | 94 => ⟨S256x3x224x224, .f32⟩
  | 95 => ⟨S_, .f32⟩
  | 96 => ⟨S256x1x1x1, .f32⟩
  | 97 => ⟨S256x1x1x1, .f32⟩
  | 98 => ⟨S256x3x224x224, .f32⟩
  | 99 => ⟨S256x3x224x224, .f32⟩
  | 100 => ⟨S_, .f32⟩
  | 101 => ⟨S_, .f32⟩
  | 102 => ⟨S_, .f32⟩
  | 103 => ⟨S256x3x224x224, .f32⟩
  | 104 => ⟨S256x3x224x224, .f32⟩
  | 105 => ⟨S_, .f32⟩
  | 106 => ⟨S256x3x224x224, .f32⟩
  | 107 => ⟨S256x3x224x224, .f32⟩
  | 108 => ⟨S256x1x3x224x224, .f32⟩
  | 109 => ⟨S256x1x3x224x224, .f32⟩
  | 110 => ⟨S256x1x3x224x224, .f32⟩
  | 111 => ⟨S256x1x3x224x224, .f32⟩
  | 112 => ⟨S256x4x3x224x224, .f32⟩
  | 113 => ⟨S256x1x1x1x1, .i32⟩
  | 114 => ⟨S_, .i32⟩
  | 115 => ⟨S256x1x1x1x1, .i32⟩
  | 116 => ⟨S256x1x1x1x1, .i1⟩
  | 117 => ⟨S_, .i32⟩
  | 118 => ⟨S256x1x1x1x1, .i32⟩
  | 119 => ⟨S256x1x1x1x1, .i32⟩
  | 120 => ⟨S256x1x1x1x1, .i32⟩
  | 121 => ⟨S256x1x1, .i32⟩
  | 122 => ⟨S1, .i32⟩
  | 123 => ⟨S_, .i32⟩
  | 124 => ⟨S256x1x1, .i32⟩
  | 125 => ⟨S256x1x1, .i1⟩
  | 126 => ⟨S1x1x1, .i32⟩
  | 127 => ⟨S256x1x1, .i32⟩
  | _ => ⟨S256x3x224x224, .f32⟩

abbrev hbmTy0_1 (i : Nat) : BufTy := match i % 128 with
  | 0 => ⟨S256x1x1, .i1⟩
  | 1 => ⟨S256x1x1, .i1⟩
  | 2 => ⟨S_, .i1⟩
  | 3 => ⟨S256x1, .i1⟩
  | 4 => ⟨S256x1x3x224x224, .f32⟩
  | 5 => ⟨S256x1x3x224x224, .i1⟩
  | 6 => ⟨S_, .f32⟩
  | 7 => ⟨S256x1x3x224x224, .f32⟩
  | 8 => ⟨S256x1x3x224x224, .f32⟩
  | 9 => ⟨S256x3x224x224, .f32⟩
  | 10 => ⟨S_, .i32⟩
  | 11 => ⟨S256, .i32⟩
  | 12 => ⟨S256, .i1⟩
  | 13 => ⟨S_, .i32⟩
  | 14 => ⟨S256, .i32⟩
  | 15 => ⟨S256, .i32⟩
  | 16 => ⟨S256, .i32⟩
  | 17 => ⟨S256x1, .i32⟩
  | 18 => ⟨S256, .i32⟩
  | 19 => ⟨S_, .i32⟩
  | 20 => ⟨S256, .i32⟩
  | 21 => ⟨S256, .i1⟩
  | 22 => ⟨S256x1x1x1, .i1⟩
  | 23 => ⟨S256x3x224x224, .i1⟩
  | 24 => ⟨S256x3x224x224, .f32⟩
  | _ => ⟨S256x3x224x224, .f32⟩

abbrev hbmTy (i : Nat) : BufTy := match i / 128 with
  | 0 => hbmTy0_0 i
  | 1 => hbmTy0_1 i
  | _ => ⟨S256x3x224x224, .f32⟩

abbrev bufTy : (tb : Table) → Fin (tcTables nBuf tb) → BufTy
  | .hbm, ⟨i, _⟩ => hbmTy i
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v0 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v1 : Ref sig .tc := ⟨.hbm, 42, rfl⟩
abbrev main_c_1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_cst_3 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst_4 : Ref sig .tc := ⟨.hbm, 59, rfl⟩
abbrev main_cst_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_6 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_cst_7 : Ref sig .tc := ⟨.hbm, 76, rfl⟩
abbrev main_cst_8 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v23 : Ref sig .tc := ⟨.hbm, 83, rfl⟩
abbrev main_cst_9 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_10 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_cst_11 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_12 : Ref sig .tc := ⟨.hbm, 100, rfl⟩
abbrev main_cst_13 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_call5_c : Ref sig .tc := ⟨.hbm, 114, rfl⟩
abbrev main_call5_v0 : Ref sig .tc := ⟨.hbm, 115, rfl⟩
abbrev main_call5_v1 : Ref sig .tc := ⟨.hbm, 116, rfl⟩
abbrev main_call5_c_0 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_call5_v5 : Ref sig .tc := ⟨.hbm, 121, rfl⟩
abbrev main_call5_c_1 : Ref sig .tc := ⟨.hbm, 122, rfl⟩
abbrev main_call5_c_2 : Ref sig .tc := ⟨.hbm, 123, rfl⟩
abbrev main_call5_v6 : Ref sig .tc := ⟨.hbm, 124, rfl⟩
abbrev main_call5_v7 : Ref sig .tc := ⟨.hbm, 125, rfl⟩
abbrev main_call5_v8 : Ref sig .tc := ⟨.hbm, 126, rfl⟩
abbrev main_call5_v9 : Ref sig .tc := ⟨.hbm, 127, rfl⟩
abbrev main_call5_v10 : Ref sig .tc := ⟨.hbm, 128, rfl⟩
abbrev main_call5_v11 : Ref sig .tc := ⟨.hbm, 129, rfl⟩
abbrev main_call5_c_3 : Ref sig .tc := ⟨.hbm, 130, rfl⟩
abbrev main_call5_v12 : Ref sig .tc := ⟨.hbm, 131, rfl⟩
abbrev main_call5_v13 : Ref sig .tc := ⟨.hbm, 132, rfl⟩
abbrev main_call5_v14 : Ref sig .tc := ⟨.hbm, 133, rfl⟩
abbrev main_call5_cst : Ref sig .tc := ⟨.hbm, 134, rfl⟩
abbrev main_call5_v15 : Ref sig .tc := ⟨.hbm, 135, rfl⟩
abbrev main_v44 : Ref sig .tc := ⟨.hbm, 136, rfl⟩
abbrev main_v45 : Ref sig .tc := ⟨.hbm, 137, rfl⟩
abbrev main_c_14 : Ref sig .tc := ⟨.hbm, 138, rfl⟩
abbrev main_v46 : Ref sig .tc := ⟨.hbm, 139, rfl⟩
abbrev main_v47 : Ref sig .tc := ⟨.hbm, 140, rfl⟩
abbrev main_c_15 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_c_16 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_call6_v0 : Ref sig .tc := ⟨.hbm, 151, rfl⟩
abbrev main_v56 : Ref sig .tc := ⟨.hbm, 152, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1x1x1_0 : S256.BroadcastsInDim S256x1x1x1 (![0] : Fin 1 → Fin S256x1x1x1.rank)
  reducesTo_S256x3x224x224_S256_d1_2_3 : S256x3x224x224.ReducesTo [1, 2, 3] S256
  h_S_ : 0 < S_.numel
  bcast_S_S256x1x1x1 : S_.BroadcastsInDim S256x1x1x1 (![] : Fin 0 → Fin S256x1x1x1.rank)
  bcast_S256x1x1x1_S256x3x224x224_0_1_2_3 : S256x1x1x1.BroadcastsInDim S256x3x224x224 (![0, 1, 2, 3] : Fin 4 → Fin S256x3x224x224.rank)
  bcast_S_S256x3x224x224 : S_.BroadcastsInDim S256x3x224x224 (![] : Fin 0 → Fin S256x3x224x224.rank)
  bcast_S256x3x224x224_S256x1x3x224x224_0_2_3_4 : S256x3x224x224.BroadcastsInDim S256x1x3x224x224 (![0, 2, 3, 4] : Fin 4 → Fin S256x1x3x224x224.rank)
  concatenates_S256x1x3x224x224_S256x1x3x224x224_S256x1x3x224x224_S256x1x3x224x224_S256x4x3x224x224_d1 : Shape.Concatenates [S256x1x3x224x224, S256x1x3x224x224, S256x1x3x224x224, S256x1x3x224x224] S256x4x3x224x224 1
  bcast_S256_S256x1x1x1x1_0 : S256.BroadcastsInDim S256x1x1x1x1 (![0] : Fin 1 → Fin S256x1x1x1x1.rank)
  bcast_S_S256x1x1x1x1 : S_.BroadcastsInDim S256x1x1x1x1 (![] : Fin 0 → Fin S256x1x1x1x1.rank)
  shapeCasts_S256x1x1x1x1_S256x1x1 : S256x1x1x1x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  bcast_S256x1_S256x1x3x224x224_0_1 : S256x1.BroadcastsInDim S256x1x3x224x224 (![0, 1] : Fin 2 → Fin S256x1x3x224x224.rank)
  bcast_S_S256x1x3x224x224 : S_.BroadcastsInDim S256x1x3x224x224 (![] : Fin 0 → Fin S256x1x3x224x224.rank)
  shapeCasts_S256x1x3x224x224_S256x3x224x224 : S256x1x3x224x224.ShapeCasts S256x3x224x224
  bcast_S256_S256x1_0 : S256.BroadcastsInDim S256x1 (![0] : Fin 1 → Fin S256x1.rank)
  gather_S256x4x3x224x224_S256x1x1_S256x1x3x224x224_234_1_0_0_1_2_113224224_wf : GatherDims.WF S256x4x3x224x224 S256x1x1 S256x1x3x224x224 [2, 3, 4] [1] [0] [1] [0] 2 ![1, 1, 3, 224, 224]
  gather_S36_S256x1_S256_n_0_n_n_0_1_1_wf : GatherDims.WF S36 S256x1 S256 [] [0] [] [0] [] 1 ![1]

variable [Facts₀]

def gather_S256x4x3x224x224_S256x1x1_S256x1x3x224x224_234_1_0_0_1_2_113224224 : GatherDims S256x4x3x224x224 S256x1x1 S256x1x3x224x224 where
  offsetDims := [2, 3, 4]
  collapsedSliceDims := [1]
  operandBatchingDims := [0]
  startIndicesBatchingDims := [0]
  startIndexMap := [1]
  indexVectorDim := 2
  sliceSizes := ![1, 1, 3, 224, 224]
  wf := gather_S256x4x3x224x224_S256x1x1_S256x1x3x224x224_234_1_0_0_1_2_113224224_wf
def gather_S36_S256x1_S256_n_0_n_n_0_1_1 : GatherDims S36 S256x1 S256 where
  offsetDims := []
  collapsedSliceDims := [0]
  operandBatchingDims := []
  startIndicesBatchingDims := []
  startIndexMap := [0]
  indexVectorDim := 1
  sliceSizes := ![1]
  wf := gather_S36_S256x1_S256_n_0_n_n_0_1_1_wf

class Facts : Prop extends Facts₀ where

variable [Facts]
-- ==== Proof.Spec.lean ====
/-
  The mathematics shared by the two programs, one image and one pixel at a time.

  For an image with op index `s` (a 32-bit word), both programs decode a transform type `t = ⌊s / 9⌋` and a magnitude
  `μ = ((s mod 9) + 1) / 10`, read one bit `ap` ("the op is applied") off the mask, and map every pixel `X` of the image,
  whose mean is `M`:
    t = 0 (brightness)  clip (X + μ)                  to [0, 1]
    t = 1 (contrast)    clip (M + (X − M)·(1 + μ))    to [0, 1]
    t = 2 (invert)      (1 − μ)·X + μ·(1 − X)         unclipped
    t = 3 (gain)        clip (X·(1 + μ))              to [0, 1]
  and leave `X` alone when `ap` is clear. The kernel writes each case as one affine map `a·X + (b₀ + c·M)` followed by a
  clip to per-image bounds `[lo, hi]` (`[−∞, +∞]` where nothing is clipped); `kElem` is that form, `rElem` the
  reference's. Over the reals the two agree (`elem_agree`): contrast is `(1 + μ)·X − μ·M`, invert `(1 − 2μ)·X + μ`, and
  a clip to `[−∞, +∞]` is the identity. The mean is taken by the kernel as a mean of 1176 row means of 128 lanes over the
  row-major flattening of the image, by the reference as one sum over the image divided by 150528 (`mean_agree`).
-/
import Idealize.ShloMosaic.PureOps.Ideal
import Idealize.ShloMosaic.Lib.ValueIdx

noncomputable section

open scoped BigOperators

namespace Cert.RandAug

open Idealize.ShloMosaic Idealize.ShloMosaic.ValueIdx

/-! ## Shapes and literals -/

/-- The images: 256 of 3 × 224 × 224. -/
abbrev SX : Shape := ⟨4, ![256, 3, 224, 224]⟩
/-- The same array flattened per image, row-major, to 1176 rows of 128 lanes. -/
abbrev SF : Shape := ⟨3, ![256, 1176, 128]⟩
/-- One word per image. -/
abbrev SB : Shape := ⟨1, ![256]⟩

abbrev fzero : Ideal .f32 := FloatOps.ofBits (F := Ideal) .f32 0x00000000#32
abbrev fone : Ideal .f32 := FloatOps.ofBits (F := Ideal) .f32 0x3F800000#32
abbrev ftwo : Ideal .f32 := FloatOps.ofBits (F := Ideal) .f32 0x40000000#32
abbrev fhalf : Ideal .f32 := FloatOps.ofBits (F := Ideal) .f32 0x3F000000#32
abbrev ften : Ideal .f32 := FloatOps.ofBits (F := Ideal) .f32 0x41200000#32
abbrev fninf : Ideal .f32 := FloatOps.ofBits (F := Ideal) .f32 0xFF800000#32
abbrev fpinf : Ideal .f32 := FloatOps.ofBits (F := Ideal) .f32 0x7F800000#32
abbrev fnan : Ideal .f32 := FloatOps.ofBits (F := Ideal) .f32 0x7FC00000#32
abbrev f128 : Ideal .f32 := FloatOps.ofBits (F := Ideal) .f32 0x43000000#32
abbrev f1176 : Ideal .f32 := FloatOps.ofBits (F := Ideal) .f32 0x44930000#32
abbrev f150528 : Ideal .f32 := FloatOps.ofBits (F := Ideal) .f32 0x48130000#32

/-! ## The integer decoding of an op index, as jnp spells it on one word -/

/-- The sign of a word as a two's-complement integer: 0, −1 or 1. -/
def sgnS (x : BitVec 32) : BitVec 32 := if x = 0 then 0 else if x.msb then -1 else 1

/-- `s // 9` as jnp's floor_divide computes it: the truncated quotient, less one where the signs differ and the
    remainder is not zero. -/
def tfS (s : BitVec 32) : BitVec 32 :=
  Scalar.select
    (IntOp.andi (IntOp.cmpi .ne (sgnS s) (sgnS 9#32)) (IntOp.cmpi .ne (IntOp.remsi .host s 9#32) 0#32))
    (IntOp.subi (IntOp.divsi .host s 9#32) 1#32)
    (IntOp.divsi .host s 9#32)

/-- jnp's remainder guards a zero divisor: the divisor 9 as it reaches the division. -/
def nineS : BitVec 32 := Scalar.select (IntOp.cmpi .eq 9#32 0#32) 1#32 9#32

/-- `s % 9` as jnp's remainder computes it: the truncated remainder, plus the divisor where it is not zero and its sign
    differs from the divisor's. -/
def remS (s : BitVec 32) : BitVec 32 :=
  Scalar.select
    (IntOp.andi
      (IntOp.cmpi .ne (IntOp.cmpi .slt (IntOp.remsi .host s nineS) 0#32) (IntOp.cmpi .slt nineS 0#32))
      (IntOp.cmpi .ne (IntOp.remsi .host s nineS) 0#32))
    (IntOp.addi (IntOp.remsi .host s nineS) nineS)
    (IntOp.remsi .host s nineS)

/-- The magnitude `((s % 9) + 1) / 10`. -/
def magS (s : BitVec 32) : Ideal .f32 :=
  FloatOps.hostDivf (FloatOps.sitofp (F := Ideal) .f32 (IntOp.addi (remS s) 1#32)) ften

/-- "The op is applied": the gathered mask word is positive. -/
def apS (g : BitVec 32) : BitVec 1 := IntOp.cmpi .sgt g 0#32

/-! ## One pixel, the kernel's way and the reference's way -/

/-- The kernel's per-image coefficients, selected by the transform type `t` and the applied bit `ap`:
    the slope `a`, the offset `b₀`, the weight `c` of the image mean, and the clip flag. -/
def aCoef (t : BitVec 32) (μ : Ideal .f32) (ap : BitVec 1) : Ideal .f32 :=
  Scalar.select ap
    (Scalar.select (IntOp.cmpi .eq t 0#32) fone (Scalar.select (IntOp.cmpi .eq t 1#32) (FloatOps.addf fone μ)
      (Scalar.select (IntOp.cmpi .eq t 2#32) (FloatOps.subf fone (FloatOps.mulf ftwo μ)) (FloatOps.addf fone μ))))
    fone
def bCoef (t : BitVec 32) (μ : Ideal .f32) (ap : BitVec 1) : Ideal .f32 :=
  Scalar.select ap
    (Scalar.select (IntOp.cmpi .eq t 0#32) μ (Scalar.select (IntOp.cmpi .eq t 1#32) fzero
      (Scalar.select (IntOp.cmpi .eq t 2#32) μ fzero)))
    fzero
def cCoef (t : BitVec 32) (μ : Ideal .f32) (ap : BitVec 1) : Ideal .f32 :=
  Scalar.select ap
    (Scalar.select (IntOp.cmpi .eq t 0#32) fzero (Scalar.select (IntOp.cmpi .eq t 1#32) (FloatOps.hostNegf μ)
      (Scalar.select (IntOp.cmpi .eq t 2#32) fzero fzero)))
    fzero
def clipFlag (t : BitVec 32) (ap : BitVec 1) : Ideal .f32 :=
  Scalar.select ap
    (Scalar.select (IntOp.cmpi .eq t 0#32) fone (Scalar.select (IntOp.cmpi .eq t 1#32) fone
      (Scalar.select (IntOp.cmpi .eq t 2#32) fzero fone)))
    fzero
/-- The per-image clip bounds: `[0, 1]` where the flag is set, `[−∞, +∞]` where it is not. -/
def loB (t : BitVec 32) (ap : BitVec 1) : Ideal .f32 :=
  Scalar.select (FloatOps.cmpf .ogt (clipFlag t ap) fhalf) fzero fninf
def hiB (t : BitVec 32) (ap : BitVec 1) : Ideal .f32 :=
  Scalar.select (FloatOps.cmpf .ogt (clipFlag t ap) fhalf) fone fpinf

/-- The kernel's pixel: one affine map `a·X + (b₀ + c·M)`, then the maximum with `lo` and the minimum with `hi`. -/
def kElem (t : BitVec 32) (μ : Ideal .f32) (ap : BitVec 1) (X M : Ideal .f32) : Ideal .f32 :=
  FloatOps.minimumf (hiB t ap) (FloatOps.maximumf (loB t ap)
    (FloatOps.addf (FloatOps.mulf (aCoef t μ ap) X) (FloatOps.addf (bCoef t μ ap) (FloatOps.mulf (cCoef t μ ap) M))))

/-- jnp.clip to [0, 1]: the maximum with 0, then the minimum with 1. -/
def clip01 (y : Ideal .f32) : Ideal .f32 := FloatOps.minimumf fone (FloatOps.maximumf fzero y)

/-- The reference's four transforms of a pixel. -/
def tBright (μ X : Ideal .f32) : Ideal .f32 := clip01 (FloatOps.addf X μ)
def tContr (μ X M : Ideal .f32) : Ideal .f32 :=
  clip01 (FloatOps.addf M (FloatOps.mulf (FloatOps.subf X M) (FloatOps.addf fone μ)))
def tInv (μ X : Ideal .f32) : Ideal .f32 :=
  FloatOps.addf (FloatOps.mulf (FloatOps.subf fone μ) X) (FloatOps.mulf μ (FloatOps.subf fone X))
def tGain (μ X : Ideal .f32) : Ideal .f32 := clip01 (FloatOps.mulf X (FloatOps.addf fone μ))

/-- The reference's pixel for a transform type in range: the transform `t` names where the op is applied, else `X`. -/
def rElem (t : BitVec 32) (μ : Ideal .f32) (ap : BitVec 1) (X M : Ideal .f32) : Ideal .f32 :=
  Scalar.select ap
    (if t = 0#32 then tBright μ X else if t = 1#32 then tContr μ X M else if t = 2#32 then tInv μ X else tGain μ X)
    X

/-! ## The two means -/

/-- The kernel's mean of image `b`: over the flattened array, the mean of the 1176 row means of 128 lanes. -/
def kMean (Xf : SF.Idx → Ideal .f32) (b : Fin 256) : Ideal .f32 :=
  FloatOps.divf (∑ r : Fin 1176, FloatOps.divf (∑ l : Fin 128, Xf (ix3 b r l)) f128) f1176

/-- The image axis kept, the three pixel axes summed. -/
theorem redX : SX.ReducesTo [1, 2, 3] SB := by decide

/-- The reference's mean of image `b`: zero plus the sum of the image's pixels, divided by their number. -/
def rMean (X : SX.Idx → Ideal .f32) (b : Fin 256) : Ideal .f32 :=
  FloatOps.hostDivf (Ideal.hostReduceAdd redX X fzero (ix1 b)) f150528

/-! ## The two results, every pixel of every image

`S` holds the op indices, `G` the mask words gathered at them (one per image). -/

/-- The image a pixel index belongs to. -/
def img (i : SX.Idx) : Fin 256 := i 0

/-- The kernel's result array. -/
def outK (X : SX.Idx → Ideal .f32) (S G : SB.Idx → BitVec 32) (h : SX.ShapeCasts SF) : SX.Idx → Ideal .f32 :=
  fun i => kElem (tfS (S (ix1 (img i)))) (magS (S (ix1 (img i)))) (apS (G (ix1 (img i)))) (X i)
    (kMean (shapeCast SF X h) (img i))

/-- The reference's result array (for transform types in range). -/
def outR (X : SX.Idx → Ideal .f32) (S G : SB.Idx → BitVec 32) : SX.Idx → Ideal .f32 :=
  fun i => rElem (tfS (S (ix1 (img i)))) (magS (S (ix1 (img i)))) (apS (G (ix1 (img i)))) (X i) (rMean X (img i))

end Cert.RandAug

end
-- ==== Proof.KernelPlanes.lean ====
/-
  The kernel's host prefix, read per image: the five coefficient planes [256, 1, 128] the pallas_call is given — slope,
  offset, mean weight and the two clip bounds, each broadcast over 128 lanes — hold at image `b` the coefficient the
  specification names, decoded from the op index `S b` and the mask word gathered at it; and the pallas_call's first
  operand is the image array flattened row-major to [256, 1176, 128].
-/
import proofs.«427089_j2173253452143_4_alg».proof.Proof.Gen.KernelIdeal.Frame
import proofs.«427089_j2173253452143_4_alg».proof.Proof.Spec
import Idealize.ShloMosaic.Lib.StableHlo.Run
import Idealize.ShloMosaic.Lib.ValueIdx
import Idealize.ShloMosaic.Lib.Pipeline.Value

noncomputable section

namespace Cert.KernelIdeal.KPlanes

open Cert.KernelIdeal Cert.KernelIdeal.Gen Cert.RandAug
open Idealize.ShloMosaic Idealize.ShloMosaic.TcCoe Idealize.SL.Sem Idealize.ShloMosaic.ValueIdx

variable (m : (ℓ : Loc nD τ sig) → Buf (Elt Ideal) ℓ)

/-- The three argument arrays on core `c`, at their literal types. -/
abbrev argX (c : Dev nD) : FVec Ideal S256x3x224x224 .f32 := m ((c : Thread nD τ).loc main_arg0)
abbrev argS (c : Dev nD) : IVec S256 32 := m ((c : Thread nD τ).loc main_arg1)
abbrev argA (c : Dev nD) : IVec S36 32 := m ((c : Thread nD τ).loc main_arg2)

/-- The mask words gathered at the op indices, a negative index wrapped by 36 first (jnp's `apply_mask[sample]`). -/
def maskWords (A : IVec S36 32) (S : IVec S256 32) : IVec S256 32 :=
  Host.gather gather_S36_S256x1_S256_n_0_n_n_0_1_1 A
    (broadcastInDim S256x1 ![0] Facts₀.bcast_S256_S256x1_0
      (select (cmpi .slt S (broadcastInDim S256 ![] Facts₀.bcast_S_S256 (constantI S_ 32 0#32)))
        (addi S (broadcastInDim S256 ![] Facts₀.bcast_S_S256 (constantI S_ 32 36#32))) S))

/-! ## The per-image vectors of the host prefix

Each is the prefix's own chain of elementwise operations on the 256 op indices `S` (and the mask table `A`), written
once; read at image `b` it is the specification's scalar of the same name. -/

/-- A rank-0 value repeated over the 256 images. -/
abbrev bc {α : Type} (x : S_.Idx → α) : S256.Idx → α := broadcastInDim S256 ![] Facts₀.bcast_S_S256 x
/-- A 32-bit word at every image. -/
abbrev bI (v : BitVec 32) : IVec S256 32 := bc (constantI S_ 32 v)
/-- A float literal at every image. -/
abbrev bF (v : BitVec 32) : FVec Ideal S256 .f32 := bc (constant (F := Ideal) S_ .f32 v)

/-- The transform types `S // 9`: the truncated quotient, less one where the signs differ and the remainder is not zero. -/
def tfV (S : IVec S256 32) : IVec S256 32 :=
  select
    (andi (cmpi .ne (signi S) (bc (signi (constantI S_ 32 9#32))))
      (cmpi .ne (Host.remsi S (bI 9#32)) (bI 0#32)))
    (subi (Host.divsi S (bI 9#32)) (bI 1#32))
    (Host.divsi S (bI 9#32))

/-- The divisor 9 behind the remainder's zero guard, as a rank-0 word. -/
def nineV : IVec S_ 32 :=
  select (cmpi .eq (constantI S_ 32 9#32) (constantI S_ 32 0#32)) (constantI S_ 32 1#32) (constantI S_ 32 9#32)

/-- The remainders `S % 9`: the truncated remainder, plus the divisor where it is not zero and its sign differs from
    the divisor's. -/
def remV (S : IVec S256 32) : IVec S256 32 :=
  select
    (andi
      (cmpi .ne (cmpi .slt (Host.remsi S (bc nineV)) (bI 0#32)) (bc (cmpi .slt nineV (constantI S_ 32 0#32))))
      (cmpi .ne (Host.remsi S (bc nineV)) (bI 0#32)))
    (addi (Host.remsi S (bc nineV)) (bc nineV))
    (Host.remsi S (bc nineV))

/-- The magnitudes `((S % 9) + 1) / 10`. -/
def magV (S : IVec S256 32) : FVec Ideal S256 .f32 :=
  Host.divf (sitofp .f32 (addi (remV S) (bI 1#32))) (bF 0x41200000#32)

/-- The applied bits: the gathered mask word is positive. -/
def apV (A : IVec S36 32) (S : IVec S256 32) : IVec S256 1 := cmpi .sgt (maskWords A S) (bI 0#32)

/-- "The transform type is `k`", per image. -/
def isT (S : IVec S256 32) (k : BitVec 32) : IVec S256 1 := cmpi .eq (tfV S) (bI k)

/-- The slopes. -/
def aV (A : IVec S36 32) (S : IVec S256 32) : FVec Ideal S256 .f32 :=
  select (apV A S)
    (select (isT S 0#32) (bF 0x3F800000#32)
      (select (isT S 1#32) (addf (bF 0x3F800000#32) (magV S))
        (select (isT S 2#32) (subf (bF 0x3F800000#32) (mulf (bF 0x40000000#32) (magV S)))
          (addf (bF 0x3F800000#32) (magV S)))))
    (bF 0x3F800000#32)

/-- The offsets. -/
def bV (A : IVec S36 32) (S : IVec S256 32) : FVec Ideal S256 .f32 :=
  select (apV A S)
    (select (isT S 0#32) (magV S)
      (select (isT S 1#32) (bF 0x00000000#32)
        (select (isT S 2#32) (magV S) (bF 0x00000000#32))))
    (bF 0x00000000#32)

/-- The weights of the image mean. -/
def cV (A : IVec S36 32) (S : IVec S256 32) : FVec Ideal S256 .f32 :=
  select (apV A S)
    (select (isT S 0#32) (bF 0x00000000#32)
      (select (isT S 1#32) (Host.negf (magV S))
        (select (isT S 2#32) (bF 0x00000000#32) (bF 0x00000000#32))))
    (bF 0x00000000#32)

/-- The clip flags. -/
def kV (A : IVec S36 32) (S : IVec S256 32) : FVec Ideal S256 .f32 :=
  select (apV A S)
    (select (isT S 0#32) (bF 0x3F800000#32)
      (select (isT S 1#32) (bF 0x3F800000#32)
        (select (isT S 2#32) (bF 0x00000000#32) (bF 0x3F800000#32))))
    (bF 0x00000000#32)

/-- The lower clip bounds: 0 where the flag exceeds one half, −∞ elsewhere. -/
def loV (A : IVec S36 32) (S : IVec S256 32) : FVec Ideal S256 .f32 :=
  select (cmpf .ogt (kV A S) (bF 0x3F000000#32)) (bF 0x00000000#32) (bF 0xFF800000#32)

/-- The upper clip bounds: 1 where the flag exceeds one half, +∞ elsewhere. -/
def hiV (A : IVec S36 32) (S : IVec S256 32) : FVec Ideal S256 .f32 :=
  select (cmpf .ogt (kV A S) (bF 0x3F000000#32)) (bF 0x3F800000#32) (bF 0x7F800000#32)

/-! ### Each vector at image `b` is the specification's scalar

Every elementwise operation reads its operands at the same index, and a repeated rank-0 value reads as that value. -/

theorem tfV_at (S : IVec S256 32) (b : Fin 256) : tfV S (ix1 b) = tfS (S (ix1 b)) := rfl
theorem remV_at (S : IVec S256 32) (b : Fin 256) : remV S (ix1 b) = remS (S (ix1 b)) := rfl
theorem magV_at (S : IVec S256 32) (b : Fin 256) : magV S (ix1 b) = magS (S (ix1 b)) := rfl
theorem apV_at (A : IVec S36 32) (S : IVec S256 32) (b : Fin 256) : apV A S (ix1 b) = apS (maskWords A S (ix1 b)) := rfl
theorem aV_at (A : IVec S36 32) (S : IVec S256 32) (b : Fin 256) :
    aV A S (ix1 b) = aCoef (tfS (S (ix1 b))) (magS (S (ix1 b))) (apS (maskWords A S (ix1 b))) := rfl
theorem bV_at (A : IVec S36 32) (S : IVec S256 32) (b : Fin 256) :
    bV A S (ix1 b) = bCoef (tfS (S (ix1 b))) (magS (S (ix1 b))) (apS (maskWords A S (ix1 b))) := rfl
theorem cV_at (A : IVec S36 32) (S : IVec S256 32) (b : Fin 256) :
    cV A S (ix1 b) = cCoef (tfS (S (ix1 b))) (magS (S (ix1 b))) (apS (maskWords A S (ix1 b))) := rfl
theorem kV_at (A : IVec S36 32) (S : IVec S256 32) (b : Fin 256) :
    kV A S (ix1 b) = clipFlag (tfS (S (ix1 b))) (apS (maskWords A S (ix1 b))) := rfl
theorem loV_at (A : IVec S36 32) (S : IVec S256 32) (b : Fin 256) :
    loV A S (ix1 b) = loB (tfS (S (ix1 b))) (apS (maskWords A S (ix1 b))) := rfl
theorem hiV_at (A : IVec S36 32) (S : IVec S256 32) (b : Fin 256) :
    hiV A S (ix1 b) = hiB (tfS (S (ix1 b))) (apS (maskWords A S (ix1 b))) := rfl

/-! ### A per-image vector spread over a plane

Reshaped to [256, 1, 1] and broadcast along the lanes, a vector reads at `(b, z, l)` its entry `b`: the broadcast
reads `(b, 0, 0)`, whose row-major position in [256, 1, 1] is `b`. -/

theorem plane_read {α : Type} (v : S256.Idx → α) (h1 : S256.ShapeCasts S256x1x1)
    (h2 : S256x1x1.BroadcastsInDim S256x1x128 (![0, 1, 2] : Fin 3 → Fin S256x1x128.rank))
    (b : Fin 256) (z : Fin 1) (l : Fin 128) :
    broadcastInDim S256x1x128 ![0, 1, 2] h2 (shapeCast S256x1x1 v h1) (ix3 b z l) = v (ix1 b) := by
  have hz : z.val = 0 := by omega
  refine (broadcastInDim_apply _ h2 _ (ix3 b z l) (ix3 b (0 : Fin 1) (0 : Fin 1)) ?_).trans ?_
  · intro a
    fin_cases a
    · rfl
    · exact hz.symm ▸ rfl
    · rfl
  · refine shapeCast_apply v h1 _ (ix1 b) ?_
    rw [Shape.rowMajor_val_one, Shape.rowMajor_val_three]
    show b.val = (b.val * 1 + 0) * 1 + 0
    omega

/-- A buffer's contents after the host prefix: the prefix spelled as its operations, in order, and each operation's
    result read at its own buffer as its function of its operands' contents, at any other buffer as what was there. -/
local macro "host_prefix_read" : tactic =>
  `(tactic| (dsimp only [Gen.V, Gen.V0]
             simp only [Gen.hostOps0, Gen.hostOps0_1, Gen.hostOps0_2, Gen.hostOps0_3, Gen.hostOps0_4, Gen.hostOps0_5,
               Gen.hostOps0_6, Gen.hostOps0_7, Gen.hostOps0_8, Gen.hostOps0_9, Gen.hostOps0_10, Gen.hostOps0_11,
               Gen.hostOps0_12, Gen.hostOps0_13, Gen.hostOps0_14, Gen.hostOps0_15, Gen.hostOps0_16, Gen.hostOps0_17,
               Gen.hostOps0_18, Gen.hostOps0_19, Gen.hostOps0_20, Gen.hostOps0_21, Gen.hostOps0_22, Gen.hostOps0_23,
               Gen.hostOps0_24, Gen.hostOps0_25, Gen.hostOps0_26, Gen.hostOps0_27, Gen.hostOps0_28,
               List.flatten_cons, List.flatten_nil, List.append_nil, List.cons_append, List.nil_append]
             after_results_simp))

/-! ## The planes as the host prefix computes them -/

/-- A per-image vector reshaped to [256, 1, 1] and broadcast to [256, 1, 128]. -/
abbrev planeOf (v : FVec Ideal S256 .f32) : FVec Ideal S256x1x128 .f32 :=
  broadcastInDim S256x1x128 ![0, 1, 2] Facts₀.bcast_S256x1x1_S256x1x128_0_1_2
    (shapeCast S256x1x1 v Facts₀.shapeCasts_S256_S256x1x1)

theorem planeOf_at (v : FVec Ideal S256 .f32) (b : Fin 256) (z : Fin 1) (l : Fin 128) :
    planeOf v (ix3 b z l) = v (ix1 b) :=
  plane_read v _ _ b z l

set_option maxHeartbeats 1000000 in
theorem V_plane_a (c : Dev nD) :
    (V m c main_v74 : S256x1x128.Idx → Ideal .f32) = planeOf (aV (argA m c) (argS m c)) := by
  host_prefix_read
  rfl

set_option maxHeartbeats 1000000 in
theorem V_plane_b (c : Dev nD) :
    (V m c main_v76 : S256x1x128.Idx → Ideal .f32) = planeOf (bV (argA m c) (argS m c)) := by
  host_prefix_read
  rfl

set_option maxHeartbeats 1000000 in
theorem V_plane_c (c : Dev nD) :
    (V m c main_v78 : S256x1x128.Idx → Ideal .f32) = planeOf (cV (argA m c) (argS m c)) := by
  host_prefix_read
  rfl

set_option maxHeartbeats 1000000 in
theorem V_plane_lo (c : Dev nD) :
    (V m c main_v80 : S256x1x128.Idx → Ideal .f32) = planeOf (loV (argA m c) (argS m c)) := by
  host_prefix_read
  rfl

set_option maxHeartbeats 1000000 in
theorem V_plane_hi (c : Dev nD) :
    (V m c main_v82 : S256x1x128.Idx → Ideal .f32) = planeOf (hiV (argA m c) (argS m c)) := by
  host_prefix_read
  rfl

/-- The slope plane (the pallas_call's operand 1) at image `b`, any lane. -/
theorem plane_a (c : Dev nD) (b : Fin 256) (z : Fin 1) (l : Fin 128) :
    (V m c main_v74 : S256x1x128.Idx → Ideal .f32) (ix3 b z l)
      = aCoef (tfS (argS m c (ix1 b))) (magS (argS m c (ix1 b))) (apS (maskWords (argA m c) (argS m c) (ix1 b))) := by
  rw [V_plane_a, planeOf_at, aV_at]

/-- The offset plane (operand 2). -/
theorem plane_b (c : Dev nD) (b : Fin 256) (z : Fin 1) (l : Fin 128) :
    (V m c main_v76 : S256x1x128.Idx → Ideal .f32) (ix3 b z l)
      = bCoef (tfS (argS m c (ix1 b))) (magS (argS m c (ix1 b))) (apS (maskWords (argA m c) (argS m c) (ix1 b))) := by
  rw [V_plane_b, planeOf_at, bV_at]

/-- The mean-weight plane (operand 3). -/
theorem plane_c (c : Dev nD) (b : Fin 256) (z : Fin 1) (l : Fin 128) :
    (V m c main_v78 : S256x1x128.Idx → Ideal .f32) (ix3 b z l)
      = cCoef (tfS (argS m c (ix1 b))) (magS (argS m c (ix1 b))) (apS (maskWords (argA m c) (argS m c) (ix1 b))) := by
  rw [V_plane_c, planeOf_at, cV_at]

/-- The lower-bound plane (operand 4). -/
theorem plane_lo (c : Dev nD) (b : Fin 256) (z : Fin 1) (l : Fin 128) :
    (V m c main_v80 : S256x1x128.Idx → Ideal .f32) (ix3 b z l)
      = loB (tfS (argS m c (ix1 b))) (apS (maskWords (argA m c) (argS m c) (ix1 b))) := by
  rw [V_plane_lo, planeOf_at, loV_at]

/-- The upper-bound plane (operand 5). -/
theorem plane_hi (c : Dev nD) (b : Fin 256) (z : Fin 1) (l : Fin 128) :
    (V m c main_v82 : S256x1x128.Idx → Ideal .f32) (ix3 b z l)
      = hiB (tfS (argS m c (ix1 b))) (apS (maskWords (argA m c) (argS m c) (ix1 b))) := by
  rw [V_plane_hi, planeOf_at, hiV_at]

set_option maxHeartbeats 1000000 in
/-- Operand 0 is the image array reshaped (row-major) to 1176 rows of 128 lanes per image. -/
theorem flat_x (c : Dev nD) :
    (V m c main_v83 : S256x1176x128.Idx → Ideal .f32)
      = shapeCast S256x1176x128 (argX m c) Facts₀.shapeCasts_S256x3x224x224_S256x1176x128 := by
  host_prefix_read
  rfl

end Cert.KernelIdeal.KPlanes

end
-- ==== Proof.KernelValue.lean ====
/-
  The kernel's result array. At grid point `t` the body reads images `16t … 16t+15` whole (1176 rows of 128 lanes each)
  with their five coefficient rows, and stores for each pixel `min hi (max lo (a·x + (b₀ + c·mean)))`, the mean taken as
  the mean of the image's 1176 row means; the sixteen-image blocks tile the output array, which the host then reshapes
  back to [256, 3, 224, 224]. So every pixel of the result is the specification's `kElem` of that pixel and its image's
  coefficients and mean: `outK`.
-/
import proofs.«427089_j2173253452143_4_alg».proof.Proof.KernelPlanes
import Idealize.ShloMosaic.Lib.Pipeline.Value
import Idealize.ShloMosaic.PureOps.Ideal.Laws

noncomputable section

namespace Cert.KernelIdeal.KValue

open Cert.KernelIdeal Cert.KernelIdeal.Gen Cert.KernelIdeal.KPlanes Cert.RandAug
open Idealize.ShloMosaic Idealize.ShloMosaic.TcCoe Idealize.SL.Sem Idealize.ShloMosaic.ValueIdx
open scoped BigOperators

/-! ## The body's layout operations and sums, read at an index -/

/-- A row of 128 lanes broadcast over 1176 rows reads the row. -/
theorem bc_rows (v : Vec Ideal S16x1x128 .f32) (h : S16x1x128.Broadcasts S16x1176x128) (p : Fin 16) (r : Fin 1176)
    (l : Fin 128) : broadcastTo S16x1176x128 v h (ix3 p r l) = v (ix3 p (0 : Fin 1) l) :=
  broadcastTo_apply v h (ix3 p r l) (ix3 p (0 : Fin 1) l) (fun a => by
    match a with
    | ⟨0, _⟩ => rfl
    | ⟨1, _⟩ => rfl
    | ⟨2, _⟩ => rfl)

/-- One value per image broadcast over 128 lanes reads the value. -/
theorem bc_lanes (v : Vec Ideal S16x1x1 .f32) (h : S16x1x1.Broadcasts S16x1x128) (p : Fin 16) (z : Fin 1) (l : Fin 128) :
    broadcastTo S16x1x128 v h (ix3 p z l) = v (ix3 p (0 : Fin 1) (0 : Fin 1)) :=
  broadcastTo_apply v h (ix3 p z l) (ix3 p (0 : Fin 1) (0 : Fin 1)) (fun a => by
    match a with
    | ⟨0, _⟩ => rfl
    | ⟨1, _⟩ => rfl
    | ⟨2, _⟩ => rfl)

/-- A trailing unit axis added to [16, 1176] keeps the row-major position. -/
theorem sc_rows (v : FVec Ideal S16x1176 .f32) (h : S16x1176.ShapeCasts S16x1176x1) (p : Fin 16) (r : Fin 1176)
    (z : Fin 1) : shapeCast S16x1176x1 v h (ix3 p r z) = v (ix2 p r) :=
  shapeCast_apply v h (ix3 p r z) (ix2 p r) (by
    rw [Shape.rowMajor_val_two, Shape.rowMajor_val_three]
    show p.val * 1176 + r.val = (p.val * 1176 + r.val) * 1 + z.val
    have := z.isLt
    omega)

/-- A trailing unit axis added to [16, 1] keeps the row-major position. -/
theorem sc_img (v : FVec Ideal S16x1 .f32) (h : S16x1.ShapeCasts S16x1x1) (p : Fin 16) (z z' : Fin 1) :
    shapeCast S16x1x1 v h (ix3 p z z') = v (ix2 p (0 : Fin 1)) :=
  shapeCast_apply v h (ix3 p z z') (ix2 p (0 : Fin 1)) (by
    rw [Shape.rowMajor_val_two, Shape.rowMajor_val_three]
    show p.val * 1 + 0 = (p.val * 1 + z.val) * 1 + z'.val
    have := z.isLt
    have := z'.isLt
    omega)

/-- The sum over the 128 lanes of a row. -/
theorem red_lanes (v : FVec Ideal S16x1176x128 .f32) (h : S16x1176x128.Reduces [2] S16x1176) (hφ : FKind.Formats .f32)
    (hacc : (0x00000000#32 : BitVec 32) = FKind.add.neutral .f32 hφ) (p : Fin 16) (r : Fin 1176) :
    multiReduction .add [2] S16x1176 v 0x00000000#32 h hφ hacc (ix2 p r) = ∑ l : Fin 128, v (ix3 p r l) := by
  refine (Ideal.multiReduction_add_single v 0x00000000#32 h hφ hacc (ix2 p r)).trans ?_
  refine Finset.sum_congr rfl fun l _ => congrArg v (funext fun a => Fin.ext ?_)
  match a with
  | ⟨0, _⟩ => rfl
  | ⟨1, _⟩ => rfl
  | ⟨2, _⟩ => rfl

/-- The sum over the 1176 rows of a column of row values. -/
theorem red_rows (v : FVec Ideal S16x1176x1 .f32) (h : S16x1176x1.Reduces [1] S16x1) (hφ : FKind.Formats .f32)
    (hacc : (0x00000000#32 : BitVec 32) = FKind.add.neutral .f32 hφ) (p : Fin 16) (z : Fin 1) :
    multiReduction .add [1] S16x1 v 0x00000000#32 h hφ hacc (ix2 p z) = ∑ r : Fin 1176, v (ix3 p r (0 : Fin 1)) := by
  refine (Ideal.multiReduction_add_single v 0x00000000#32 h hφ hacc (ix2 p z)).trans ?_
  refine Finset.sum_congr rfl fun r _ => congrArg v (funext fun a => Fin.ext ?_)
  match a with
  | ⟨0, _⟩ => rfl
  | ⟨1, _⟩ => rfl
  | ⟨2, _⟩ =>
    show (z : Nat) = 0
    have := z.isLt
    omega

/-! ## The body's stored value at one pixel of a block -/

/-- The mean of image `p` of a block as the body takes it: the mean over the 1176 rows of the means over the 128 lanes. -/
def blkMean (x0 : Vec Ideal S16x1176x128 .f32) (p : Fin 16) : Ideal .f32 :=
  FloatOps.divf (∑ r : Fin 1176, FloatOps.divf (∑ l : Fin 128, x0 (ix3 p r l)) f128) f1176

/-- The body's stored value at image `p`, row `r`, lane `l` of a block: the minimum with the upper bound of the maximum
    with the lower bound of `a·x + (b₀ + c·mean)`, the five coefficients read at the image's row, lane `l`. -/
theorem pay_apply (x0 : Vec Ideal S16x1176x128 .f32) (x1 x2 x3 x4 x5 : Vec Ideal S16x1x128 .f32)
    (p : Fin 16) (r : Fin 1176) (l : Fin 128) :
    (k0_pay1 x0 x1 x2 x3 x4 x5 : S16x1176x128.Idx → Ideal .f32) (ix3 p r l)
      = FloatOps.minimumf (x5 (ix3 p (0 : Fin 1) l)) (FloatOps.maximumf (x4 (ix3 p (0 : Fin 1) l))
          (FloatOps.addf (FloatOps.mulf (x1 (ix3 p (0 : Fin 1) l)) (x0 (ix3 p r l)))
            (FloatOps.addf (x2 (ix3 p (0 : Fin 1) l)) (FloatOps.mulf (x3 (ix3 p (0 : Fin 1) l)) (blkMean x0 p))))) := by
  unfold k0_pay1
  simp only [shapeCast_self]
  show FloatOps.minimumf (F := Ideal) (φ := .f32) (broadcastTo S16x1176x128 x5 _ (ix3 p r l))
      (FloatOps.maximumf (F := Ideal) (φ := .f32) (broadcastTo S16x1176x128 x4 _ (ix3 p r l))
        (FloatOps.addf (F := Ideal) (φ := .f32)
          (FloatOps.mulf (F := Ideal) (φ := .f32) (broadcastTo S16x1176x128 x1 _ (ix3 p r l)) (x0 (ix3 p r l)))
          (broadcastTo S16x1176x128 _ _ (ix3 p r l)))) = _
  refine congrArg₂ FloatOps.minimumf (bc_rows x5 _ p r l) (congrArg₂ FloatOps.maximumf (bc_rows x4 _ p r l)
    (congrArg₂ FloatOps.addf (congrArg₂ FloatOps.mulf (bc_rows x1 _ p r l) rfl) ((bc_rows _ _ p r l).trans ?_)))
  show FloatOps.addf (F := Ideal) (φ := .f32) (x2 (ix3 p (0 : Fin 1) l))
      (FloatOps.mulf (F := Ideal) (φ := .f32) (x3 (ix3 p (0 : Fin 1) l))
        (broadcastTo S16x1x128 _ _ (ix3 p (0 : Fin 1) l))) = _
  refine congrArg₂ FloatOps.addf rfl (congrArg₂ FloatOps.mulf rfl ((bc_lanes _ _ p 0 l).trans ?_))
  unfold blkMean
  show FloatOps.divf (F := Ideal) (φ := .f32) (shapeCast S16x1x1 _ _ (ix3 p (0 : Fin 1) (0 : Fin 1))) _ = _
  refine congrArg₂ FloatOps.divf ((sc_img _ _ p 0 0).trans ((red_rows _ _ _ _ p 0).trans
    (Finset.sum_congr rfl fun r' _ => ?_))) rfl
  show FloatOps.divf (F := Ideal) (φ := .f32) (shapeCast S16x1176x1 _ _ (ix3 p r' (0 : Fin 1))) _ = _
  exact congrArg₂ FloatOps.divf ((sc_rows _ _ p r' 0).trans (red_lanes _ _ _ _ p r')) rfl

/-! ## The blocks at a grid point, read off the arrays -/

variable (m : (ℓ : Loc nD τ sig) → Buf (Elt Ideal) ℓ) (ρ : Dev nD → PrngReg)

theorem hz3 : (![0, 0, 0] : Fin 3 → Nat) = fun _ => 0 := funext fun a => by fin_cases a <;> rfl

/-- The index maps over the sixteen points: every window's block index at point `t` is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- The image block at point `t` holds images `16 t … 16 t + 15` of the flattened array. -/
theorem xblk_apply (c : Dev nD) (t : Fin cfg0.N) (p : Fin 16) (r : Fin 1176) (l : Fin 128) (b : Fin 256)
    (hb : b.val = 16 * t.val + p.val) :
    (iblk m c 0 t : Vec Ideal S16x1176x128 .f32) (ix3 p r l)
      = (V m c main_v83 : S256x1176x128.Idx → Ideal .f32) (ix3 b r l) := by
  obtain ⟨e0, e1, e2⟩ := (idx_facts t).1
  unfold iblk
  rw [View.read_apply]
  show V m c main_v83 _ = V m c main_v83 _
  congr 1
  funext a
  apply Fin.ext
  match a with
  | ⟨0, _⟩ => show win0_0.index t (0 : Fin 3) * 16 + 1 * p.val = b.val; rw [e0, hb]; omega
  | ⟨1, _⟩ => show win0_0.index t (1 : Fin 3) * 1176 + 1 * r.val = r.val; rw [e1]; omega
  | ⟨2, _⟩ => show win0_0.index t (2 : Fin 3) * 128 + 1 * l.val = l.val; rw [e2]; omega

/-- The slope block at point `t` holds rows `16 t … 16 t + 15` of the slope plane. -/
theorem ablk_apply (c : Dev nD) (t : Fin cfg0.N) (p : Fin 16) (z : Fin 1) (l : Fin 128) (b : Fin 256)
    (hb : b.val = 16 * t.val + p.val) :
    (iblk m c 1 t : Vec Ideal S16x1x128 .f32) (ix3 p z l)
      = (V m c main_v74 : S256x1x128.Idx → Ideal .f32) (ix3 b z l) := by
  obtain ⟨e0, e1, e2⟩ := (idx_facts t).2.1
  unfold iblk
  rw [View.read_apply]
  show V m c main_v74 _ = V m c main_v74 _
  congr 1
  funext a
  apply Fin.ext
  match a with
  | ⟨0, _⟩ => show win0_1.index t (0 : Fin 3) * 16 + 1 * p.val = b.val; rw [e0, hb]; omega
  | ⟨1, _⟩ => show win0_1.index t (1 : Fin 3) * 1 + 1 * z.val = z.val; rw [e1]; omega
  | ⟨2, _⟩ => show win0_1.index t (2 : Fin 3) * 128 + 1 * l.val = l.val; rw [e2]; omega

/-- The offset block at point `t` holds rows `16 t … 16 t + 15` of the offset plane. -/
theorem bblk_apply (c : Dev nD) (t : Fin cfg0.N) (p : Fin 16) (z : Fin 1) (l : Fin 128) (b : Fin 256)
    (hb : b.val = 16 * t.val + p.val) :
    (iblk m c 2 t : Vec Ideal S16x1x128 .f32) (ix3 p z l)
      = (V m c main_v76 : S256x1x128.Idx → Ideal .f32) (ix3 b z l) := by
  obtain ⟨e0, e1, e2⟩ := (idx_facts t).2.2.1
  unfold iblk
  rw [View.read_apply]
  show V m c main_v76 _ = V m c main_v76 _
  congr 1
  funext a
  apply Fin.ext
  match a with
  | ⟨0, _⟩ => show win0_2.index t (0 : Fin 3) * 16 + 1 * p.val = b.val; rw [e0, hb]; omega
  | ⟨1, _⟩ => show win0_2.index t (1 : Fin 3) * 1 + 1 * z.val = z.val; rw [e1]; omega
  | ⟨2, _⟩ => show win0_2.index t (2 : Fin 3) * 128 + 1 * l.val = l.val; rw [e2]; omega

/-- The mean-weight block at point `t` holds rows `16 t … 16 t + 15` of the mean-weight plane. -/
theorem cblk_apply (c : Dev nD) (t : Fin cfg0.N) (p : Fin 16) (z : Fin 1) (l : Fin 128) (b : Fin 256)
    (hb : b.val = 16 * t.val + p.val) :
    (iblk m c 3 t : Vec Ideal S16x1x128 .f32) (ix3 p z l)
      = (V m c main_v78 : S256x1x128.Idx → Ideal .f32) (ix3 b z l) := by
  obtain ⟨e0, e1, e2⟩ := (idx_facts t).2.2.2.1
  unfold iblk
  rw [View.read_apply]
  show V m c main_v78 _ = V m c main_v78 _
  congr 1
  funext a
  apply Fin.ext
  match a with
  | ⟨0, _⟩ => show win0_3.index t (0 : Fin 3) * 16 + 1 * p.val = b.val; rw [e0, hb]; omega
  | ⟨1, _⟩ => show win0_3.index t (1 : Fin 3) * 1 + 1 * z.val = z.val; rw [e1]; omega
  | ⟨2, _⟩ => show win0_3.index t (2 : Fin 3) * 128 + 1 * l.val = l.val; rw [e2]; omega

/-- The lower-bound block at point `t` holds rows `16 t … 16 t + 15` of the lower-bound plane. -/
theorem loblk_apply (c : Dev nD) (t : Fin cfg0.N) (p : Fin 16) (z : Fin 1) (l : Fin 128) (b : Fin 256)
    (hb : b.val = 16 * t.val + p.val) :
    (iblk m c 4 t : Vec Ideal S16x1x128 .f32) (ix3 p z l)
      = (V m c main_v80 : S256x1x128.Idx → Ideal .f32) (ix3 b z l) := by
  obtain ⟨e0, e1, e2⟩ := (idx_facts t).2.2.2.2.1
  unfold iblk
  rw [View.read_apply]
  show V m c main_v80 _ = V m c main_v80 _
  congr 1
  funext a
  apply Fin.ext
  match a with
  | ⟨0, _⟩ => show win0_4.index t (0 : Fin 3) * 16 + 1 * p.val = b.val; rw [e0, hb]; omega
  | ⟨1, _⟩ => show win0_4.index t (1 : Fin 3) * 1 + 1 * z.val = z.val; rw [e1]; omega
  | ⟨2, _⟩ => show win0_4.index t (2 : Fin 3) * 128 + 1 * l.val = l.val; rw [e2]; omega

/-- The upper-bound block at point `t` holds rows `16 t … 16 t + 15` of the upper-bound plane. -/
theorem hiblk_apply (c : Dev nD) (t : Fin cfg0.N) (p : Fin 16) (z : Fin 1) (l : Fin 128) (b : Fin 256)
    (hb : b.val = 16 * t.val + p.val) :
    (iblk m c 5 t : Vec Ideal S16x1x128 .f32) (ix3 p z l)
      = (V m c main_v82 : S256x1x128.Idx → Ideal .f32) (ix3 b z l) := by
  obtain ⟨e0, e1, e2⟩ := (idx_facts t).2.2.2.2.2.1
  unfold iblk
  rw [View.read_apply]
  show V m c main_v82 _ = V m c main_v82 _
  congr 1
  funext a
  apply Fin.ext
  match a with
  | ⟨0, _⟩ => show win0_5.index t (0 : Fin 3) * 16 + 1 * p.val = b.val; rw [e0, hb]; omega
  | ⟨1, _⟩ => show win0_5.index t (1 : Fin 3) * 1 + 1 * z.val = z.val; rw [e1]; omega
  | ⟨2, _⟩ => show win0_5.index t (2 : Fin 3) * 128 + 1 * l.val = l.val; rw [e2]; omega

/-! ## The pallas_call's result array -/

/-- The image array flattened to 1176 rows of 128 lanes per image. -/
abbrev flatX (c : Dev nD) : S256x1176x128.Idx → Ideal .f32 :=
  shapeCast S256x1176x128 (argX m c) Facts₀.shapeCasts_S256x3x224x224_S256x1176x128

/-- The specification's pixel of image `b` at pixel value `x`: the image's decoded coefficients and its mean. -/
def pixK (c : Dev nD) (b : Fin 256) (x : Ideal .f32) : Ideal .f32 :=
  kElem (tfS (argS m c (ix1 b))) (magS (argS m c (ix1 b))) (apS (maskWords (argA m c) (argS m c) (ix1 b))) x
    (kMean (flatX m c) b)

/-- The pallas_call's result array [256, 1176, 128]: the specification's pixel of the flattened image array. -/
def flatK (c : Dev nD) : S256x1176x128.Idx → Ideal .f32 := fun i => pixK m c (i 0) (flatX m c i)

/-- The mean the body takes of image `p` of the block at point `t` is the specification's mean of image `16 t + p`. -/
theorem mean_eq (c : Dev nD) (t : Fin cfg0.N) (p : Fin 16) (b : Fin 256) (hb : b.val = 16 * t.val + p.val) :
    blkMean (iblk m c 0 t) p = kMean (flatX m c) b := by
  unfold blkMean kMean
  exact congrArg₂ FloatOps.divf (Finset.sum_congr rfl fun r' _ => congrArg₂ FloatOps.divf
    (Finset.sum_congr rfl fun l' _ =>
      (xblk_apply m c t p r' l' b hb).trans (congrFun (flat_x m c) (ix3 b r' l'))) rfl) rfl

/-- What the body stores at point `t` for image `p` of the block is the result array at image `16 t + p`. -/
theorem point_apply (c : Dev nD) (t : Fin cfg0.N) (p : Fin 16) (r : Fin 1176) (l : Fin 128) (b : Fin 256)
    (hb : b.val = 16 * t.val + p.val) :
    (k0_pay1 (iblk m c 0 t) (iblk m c 1 t) (iblk m c 2 t) (iblk m c 3 t) (iblk m c 4 t) (iblk m c 5 t)
        : S16x1176x128.Idx → Ideal .f32) (ix3 p r l)
      = flatK m c (ix3 b r l) := by
  refine (pay_apply (iblk m c 0 t) (iblk m c 1 t) (iblk m c 2 t) (iblk m c 3 t) (iblk m c 4 t) (iblk m c 5 t)
    p r l).trans ?_
  show _ = pixK m c b (flatX m c (ix3 b r l))
  unfold pixK kElem
  exact congrArg₂ FloatOps.minimumf ((hiblk_apply m c t p 0 l b hb).trans (plane_hi m c b 0 l))
    (congrArg₂ FloatOps.maximumf ((loblk_apply m c t p 0 l b hb).trans (plane_lo m c b 0 l))
      (congrArg₂ FloatOps.addf
        (congrArg₂ FloatOps.mulf ((ablk_apply m c t p 0 l b hb).trans (plane_a m c b 0 l))
          ((xblk_apply m c t p r l b hb).trans (congrFun (flat_x m c) (ix3 b r l))))
        (congrArg₂ FloatOps.addf ((bblk_apply m c t p 0 l b hb).trans (plane_b m c b 0 l))
          (congrArg₂ FloatOps.mulf ((cblk_apply m c t p 0 l b hb).trans (plane_c m c b 0 l))
            (mean_eq m c t p b hb)))))

/-- What point `t` writes back is block `t` of the result array. -/
theorem flushed_eq (c : Dev nD) (t : Fin cfg0.N) :
    (dats m 0 c).flushed 6 t = ((cfg0.win 6).blk t).view.read (Elt Ideal) (flatK m c) := by
  show (cfg0.win 6).cut (grid0.coords t) ((dats m 0 c).after 6 t) = _
  rw [after0_6]
  unfold out0_6
  rw [View.canon_unit_zero hz3]
  simp only [View.ld_unit_zero (S := S16x1176x128) hz3, View.ld_unit_zero (S := S16x1x128) hz3]
  funext j
  obtain ⟨p, r, l, rfl⟩ : ∃ (p : Fin 16) (r : Fin 1176) (l : Fin 128), j = ix3 p r l :=
    ⟨j 0, j 1, j 2, eq_ix3 (n0 := 16) (n1 := 1176) (n2 := 128) j⟩
  have ht : t.val < 16 := t.isLt
  obtain ⟨e0, e1, e2⟩ := (idx_facts t).2.2.2.2.2.2
  have hb : 16 * t.val + p.val < 256 := by omega
  refine (point_apply m c t p r l ⟨16 * t.val + p.val, hb⟩ rfl).trans (congrArg (flatK m c) ?_)
  funext a
  apply Fin.ext
  match a with
  | ⟨0, _⟩ => show 16 * t.val + p.val = win0_6.index t (0 : Fin 3) * 16 + 1 * p.val; rw [e0]; omega
  | ⟨1, _⟩ => show r.val = win0_6.index t (1 : Fin 3) * 1176 + 1 * r.val; rw [e1]; omega
  | ⟨2, _⟩ => show l.val = win0_6.index t (2 : Fin 3) * 128 + 1 * l.val; rw [e2]; omega

/-- An index of the result array is in point `t`'s block iff each coordinate is in the block's range on its axis. -/
theorem mem_blk (t : Fin cfg0.N) (i : S256x1176x128.Idx) :
    i ∈ ((cfg0.win 6).blk t).view.set ↔ ∀ a : Fin 3, win0_6.index t a * S16x1176x128.size a ≤ (i a).val
      ∧ (i a).val < win0_6.index t a * S16x1176x128.size a + S16x1176x128.size a := by
  show i ∈ ((View.whole main_v84).slice (win0_6.rect t)).set ↔ _
  rw [View.set_slice_whole, Rect.mem_set_unit]
  exact Iff.rfl

/-- Image `b` lies in the block of point `b / 16`: the sixteen blocks tile the result array. -/
theorem cover (i : S256x1176x128.Idx) :
    ∃ t : Fin cfg0.N, (cfg0.win 6).flush t = true ∧ i ∈ ((cfg0.win 6).blk t).view.set := by
  have hi0 : (i 0).val < 256 := (i 0).isLt
  have hi1 : (i 1).val < 1176 := (i 1).isLt
  have hi2 : (i 2).val < 128 := (i 2).isLt
  have hq : (i 0).val / 16 < cfg0.N := by show (i 0).val / 16 < 16; omega
  have e0 : win0_6.index ⟨(i 0).val / 16, hq⟩ (0 : Fin 3) = (i 0).val / 16 :=
    (idx_facts ⟨(i 0).val / 16, hq⟩).2.2.2.2.2.2.1
  have e1 : win0_6.index ⟨(i 0).val / 16, hq⟩ (1 : Fin 3) = 0 := (idx_facts ⟨(i 0).val / 16, hq⟩).2.2.2.2.2.2.2.1
  have e2 : win0_6.index ⟨(i 0).val / 16, hq⟩ (2 : Fin 3) = 0 := (idx_facts ⟨(i 0).val / 16, hq⟩).2.2.2.2.2.2.2.2
  refine ⟨⟨(i 0).val / 16, hq⟩, flush0_6 _, ?_⟩
  rw [mem_blk]
  intro a
  match a with
  | ⟨0, _⟩ =>
    show win0_6.index ⟨(i 0).val / 16, hq⟩ (0 : Fin 3) * 16 ≤ (i 0).val
      ∧ (i 0).val < win0_6.index ⟨(i 0).val / 16, hq⟩ (0 : Fin 3) * 16 + 16
    rw [e0]; omega
  | ⟨1, _⟩ =>
    show win0_6.index ⟨(i 0).val / 16, hq⟩ (1 : Fin 3) * 1176 ≤ (i 1).val
      ∧ (i 1).val < win0_6.index ⟨(i 0).val / 16, hq⟩ (1 : Fin 3) * 1176 + 1176
    rw [e1]; omega
  | ⟨2, _⟩ =>
    show win0_6.index ⟨(i 0).val / 16, hq⟩ (2 : Fin 3) * 128 ≤ (i 2).val
      ∧ (i 2).val < win0_6.index ⟨(i 0).val / 16, hq⟩ (2 : Fin 3) * 128 + 128
    rw [e2]; omega

/-- After the sixteen points the pallas_call's result array holds `flatK`. -/
theorem final (c : Dev nD) : (dats m 0 c).arrAt 6 cfg0.N = flatK m c :=
  (dats m 0 c).arrAt_eq_of_cover 6 (flatK m c) (fun t _ => flushed_eq m c t) cover

/-! ## The reshape back to [256, 3, 224, 224] -/

/-- The image coordinate of a pixel's flattened index is the pixel's own: an image's 3·224·224 pixels are its
    1176·128, so equal row-major positions have equal quotients by 150528. -/
theorem flat_img (h : S256x1176x128.ShapeCasts S256x3x224x224) (i : S256x3x224x224.Idx) :
    (Shape.reshapeEquiv h i (0 : Fin 3) : Fin 256) = (i (0 : Fin 4) : Fin 256) := by
  have e : (((Shape.reshapeEquiv h i (0 : Fin 3)).val * 1176 + (Shape.reshapeEquiv h i (1 : Fin 3)).val) * 128
        + (Shape.reshapeEquiv h i (2 : Fin 3)).val)
      = ((((i (0 : Fin 4)).val * 3 + (i (1 : Fin 4)).val) * 224 + (i (2 : Fin 4)).val) * 224
        + (i (3 : Fin 4)).val) := by
    have e := Shape.rowMajor_reshapeEquiv h i
    rw [Shape.rowMajor_val_three, Shape.rowMajor_val_four] at e
    exact e
  have j0 : (Shape.reshapeEquiv h i (0 : Fin 3)).val < 256 := (Shape.reshapeEquiv h i (0 : Fin 3)).isLt
  have j1 : (Shape.reshapeEquiv h i (1 : Fin 3)).val < 1176 := (Shape.reshapeEquiv h i (1 : Fin 3)).isLt
  have j2 : (Shape.reshapeEquiv h i (2 : Fin 3)).val < 128 := (Shape.reshapeEquiv h i (2 : Fin 3)).isLt
  have i0 : (i (0 : Fin 4)).val < 256 := (i (0 : Fin 4)).isLt
  have i1 : (i (1 : Fin 4)).val < 3 := (i (1 : Fin 4)).isLt
  have i2 : (i (2 : Fin 4)).val < 224 := (i (2 : Fin 4)).isLt
  have i3 : (i (3 : Fin 4)).val < 224 := (i (3 : Fin 4)).isLt
  apply Fin.ext
  omega

/-- The host's reshape of the result array back to [256, 3, 224, 224] is `outK`: flattening a pixel index and reading
    the flattened image array there gives the pixel back, and the flattened index lies in the same image. -/
theorem tail_eq (c : Dev nD) :
    Pipeline.afterTail₀ cfgs (dats m) 0 (V0 m) [hostOps1] c main_v85
      = outK (argX m c) (argS m c) (maskWords (argA m c) (argS m c))
          Facts₀.shapeCasts_S256x3x224x224_S256x1176x128 := by
  unfold Pipeline.afterTail₀
  show StableHlo.after hostOps1 _ (Proc.devRef .tc main_v85) = _
  after_results
  have hW : (Pipeline.withArrays (cfgs 0).spec c (V0 m c) (fun w => (dats m 0 c).arrAt w (cfgs 0).N)
      (Proc.devRef .tc main_v84) : S256x1176x128.Idx → Ideal .f32) = flatK m c :=
    (Pipeline.withArrays_arr spec0 launch0.win.arr_inj c _ _ 6).trans (final m c)
  funext i
  show (Pipeline.withArrays (cfgs 0).spec c (V0 m c) (fun w => (dats m 0 c).arrAt w (cfgs 0).N)
      (Proc.devRef .tc main_v84) : S256x1176x128.Idx → Ideal .f32)
        (Shape.reshapeEquiv Facts₀.shapeCasts_S256x1176x128_S256x3x224x224 i) = _
  rw [hW]
  show pixK m c (Shape.reshapeEquiv Facts₀.shapeCasts_S256x1176x128_S256x3x224x224 i (0 : Fin 3))
      (flatX m c (Shape.reshapeEquiv Facts₀.shapeCasts_S256x1176x128_S256x3x224x224 i))
    = pixK m c (i (0 : Fin 4)) (argX m c i)
  exact congrArg₂ (pixK m c) (flat_img Facts₀.shapeCasts_S256x1176x128_S256x3x224x224 i)
    (congrFun (shapeCast_shapeCast (argX m c) Facts₀.shapeCasts_S256x3x224x224_S256x1176x128
      Facts₀.shapeCasts_S256x1176x128_S256x3x224x224) i)

/-! ## The run -/

/-- Every weakly fair execution of the idealized kernel's @main terminates with the result array at `outK` of the
    arguments, and the arguments unchanged. -/
theorem run :
    θ_run (defs (F := Ideal)) (onTc (τ := τ) (main (F := Ideal))) ⟨m, fun _ => 0, ρ⟩ (fun r => ∀ c : Dev nD,
      r.2.mem ((c.tc : Thread nD τ).loc main_v85)
          = outK (argX m c) (argS m c) (maskWords (argA m c) (argS m c)) Facts₀.shapeCasts_S256x3x224x224_S256x1176x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v85 (Pipeline.mem_restRefs_of main_v85 (by decide) (by decide))).trans (tail_eq m c),
      ((h c).2 main_arg0 (Pipeline.mem_restRefs_of main_arg0 (by decide) (by decide))).trans
        (W_main_arg0 m (dats m) c),
      ((h c).2 main_arg1 (Pipeline.mem_restRefs_of main_arg1 (by decide) (by decide))).trans
        (W_main_arg1 m (dats m) c),
      ((h c).2 main_arg2 (Pipeline.mem_restRefs_of main_arg2 (by decide) (by decide))).trans
        (W_main_arg2 m (dats m) c)⟩)
    (run_main m ρ)

end Cert.KernelIdeal.KValue

end
-- ==== Proof.RefRun.lean ====
/-
  The reference's @main as one straight line of host operations (the functions jax outlined — floor_divide, remainder,
  clip, take_along_axis, where — written out at their calls over each call's own buffers), and its run: every weakly
  fair execution terminates with every buffer at the operations' fold over the launch contents.
-/
import proofs.«427089_j2173253452143_4_alg».proof.Proof.Gen.ReferenceIdeal
import Idealize.ShloMosaic.Lib.StableHlo.Run

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

/-- The contents of a tensor value of shape `s` and element type `e`. -/
local notation "𝒞[" s ", " e "]" => BufTy.Contents (Elt F) (BufTy.mk s e)

/-- @main's operations, in order, the callees' inline: the op index's quotient by 9 rounded down (floor_divide: the
    truncated quotient, less one where the signs differ and the remainder is not zero) and its remainder by 9 with the
    divisor's sign (remainder), the magnitude `(r + 1) / 10`, each image's mean, the four transforms (brightness,
    contrast, inversion blend, gain; three of them clipped to `[0, 1]`), their stack, the pick along the stack
    by the quotient (take_along_axis: a negative index wrapped, the range test, the gather, the select against NaN), the
    mask word gathered at the op index, and the final select between the picked transform and the input. -/
abbrev ops : List (HloOp τ sig (Elt F)) :=
  [ nullary main_c (constantI S_ 32 9#32),
    -- floor_divide(%arg1, %c)
    TRef.unary (.of main_c) main_call0.v0 id,
    TRef.unary main_call0.v0 main_call0.v1 (broadcastInDim S256 ![] bcast_S_S256),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S256 ![] bcast_S_S256),
    TRef.binary main_call0.v3 main_call0.v5 main_call0.v6 (cmpi .ne),
    TRef.unary main_call0.v0 main_call0.v7 (broadcastInDim S256 ![] bcast_S_S256),
    TRef.binary (.of main_arg1) main_call0.v7 main_call0.v8 Host.remsi,
    TRef.nullary main_call0.c (constantI S_ 32 0#32),
    TRef.unary main_call0.c main_call0.v9 (broadcastInDim S256 ![] bcast_S_S256),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S256 ![] bcast_S_S256),
    TRef.binary main_call0.v2 main_call0.v12 main_call0.v13 subi,
    TRef.ternary main_call0.v11 main_call0.v13 main_call0.v2 main_call0.call0.v0 select,
    nullary main_c_0 (constantI S_ 32 9#32),
    -- remainder(%arg1, %c_0)
    TRef.unary (.of main_c_0) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S256 ![] bcast_S_S256),
    TRef.binary (.of main_arg1) main_call1.v3 main_call1.v4 Host.remsi,
    TRef.nullary main_call1.c_1 (constantI S_ 32 0#32),
    TRef.unary main_call1.c_1 main_call1.v5 (broadcastInDim S256 ![] bcast_S_S256),
    TRef.binary main_call1.v4 main_call1.v5 main_call1.v6 (cmpi .ne),
    TRef.nullary main_call1.c_2 (constantI S_ 32 0#32),
    TRef.unary main_call1.c_2 main_call1.v7 (broadcastInDim S256 ![] bcast_S_S256),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S256 ![] bcast_S_S256),
    TRef.binary main_call1.v8 main_call1.v10 main_call1.v11 (cmpi .ne),
    TRef.binary main_call1.v11 main_call1.v6 main_call1.v12 andi,
    TRef.unary main_call1.call0.v0 main_call1.v13 (broadcastInDim S256 ![] bcast_S_S256),
    TRef.binary main_call1.v4 main_call1.v13 main_call1.v14 addi,
    TRef.ternary main_call1.v12 main_call1.v14 main_call1.v4 main_call1.v15 select,
    -- the magnitude (r + 1) / 10
    nullary main_c_1 (constantI S_ 32 1#32),
    unary main_c_1 main_v2 (broadcastInDim S256 ![] bcast_S_S256 : 𝒞[S_, .i32] → 𝒞[S256, .i32]),
    binary main_v1 main_v2 main_v3 (addi : 𝒞[S256, .i32] → 𝒞[S256, .i32] → 𝒞[S256, .i32]),
    unary main_v3 main_v4 (sitofp .f32 : 𝒞[S256, .i32] → 𝒞[S256, .f32]),
    nullary main_cst (constant S_ .f32 0x41200000#32),
    unary main_cst main_v5 (broadcastInDim S256 ![] bcast_S_S256 : 𝒞[S_, .f32] → 𝒞[S256, .f32]),
    binary main_v4 main_v5 main_v6 (Host.divf : 𝒞[S256, .f32] → 𝒞[S256, .f32] → 𝒞[S256, .f32]),
    unary main_v6 main_v7 (broadcastInDim S256x1x1x1 ![0] bcast_S256_S256x1x1x1_0 : 𝒞[S256, .f32] → 𝒞[S256x1x1x1, .f32]),
    -- each image's mean
    nullary main_cst_2 (constant S_ .f32 0x00000000#32),
    binary main_arg0 main_cst_2 main_v8 ((fun x v => Host.reduceAdd x v reducesTo_S256x3x224x224_S256_d1_2_3 h_S_) : 𝒞[S256x3x224x224, .f32] → 𝒞[S_, .f32] → 𝒞[S256, .f32]),
    unary main_v8 main_v9 (broadcastInDim S256x1x1x1 ![0] bcast_S256_S256x1x1x1_0 : 𝒞[S256, .f32] → 𝒞[S256x1x1x1, .f32]),
    nullary main_cst_3 (constant S_ .f32 0x48130000#32),
    unary main_cst_3 main_v10 (broadcastInDim S256x1x1x1 ![] bcast_S_S256x1x1x1 : 𝒞[S_, .f32] → 𝒞[S256x1x1x1, .f32]),
    binary main_v9 main_v10 main_v11 (Host.divf : 𝒞[S256x1x1x1, .f32] → 𝒞[S256x1x1x1, .f32] → 𝒞[S256x1x1x1, .f32]),
    -- brightness: clip(x + mag)
    unary main_v7 main_v12 (broadcastInDim S256x3x224x224 ![0, 1, 2, 3] bcast_S256x1x1x1_S256x3x224x224_0_1_2_3 : 𝒞[S256x1x1x1, .f32] → 𝒞[S256x3x224x224, .f32]),
    binary main_arg0 main_v12 main_v13 (addf : 𝒞[S256x3x224x224, .f32] → 𝒞[S256x3x224x224, .f32] → 𝒞[S256x3x224x224, .f32]),
    nullary main_cst_4 (constant S_ .f32 0x00000000#32),
    nullary main_cst_5 (constant S_ .f32 0x3F800000#32),
    TRef.unary (.of main_cst_4) main_call2.v0 id,
    TRef.unary main_call2.v0 main_call2.v1 (broadcastInDim S256x3x224x224 ![] bcast_S_S256x3x224x224),
    TRef.binary main_call2.v1 (.of main_v13) main_call2.v2 maximumf,
    TRef.unary (.of main_cst_5) main_call2.v3 id,
    TRef.unary main_call2.v3 main_call2.v4 (broadcastInDim S256x3x224x224 ![] bcast_S_S256x3x224x224),
    TRef.binary main_call2.v4 main_call2.v2 main_call2.v5 minimumf,
    -- contrast: clip(mean + (x - mean) * (1 + mag))
    unary main_v11 main_v15 (broadcastInDim S256x3x224x224 ![0, 1, 2, 3] bcast_S256x1x1x1_S256x3x224x224_0_1_2_3 : 𝒞[S256x1x1x1, .f32] → 𝒞[S256x3x224x224, .f32]),
    binary main_arg0 main_v15 main_v16 (subf : 𝒞[S256x3x224x224, .f32] → 𝒞[S256x3x224x224, .f32] → 𝒞[S256x3x224x224, .f32]),
    nullary main_cst_6 (constant S_ .f32 0x3F800000#32),
    unary main_cst_6 main_v17 (broadcastInDim S256x1x1x1 ![] bcast_S_S256x1x1x1 : 𝒞[S_, .f32] → 𝒞[S256x1x1x1, .f32]),
    binary main_v17 main_v7 main_v18 (addf : 𝒞[S256x1x1x1, .f32] → 𝒞[S256x1x1x1, .f32] → 𝒞[S256x1x1x1, .f32]),
    unary main_v18 main_v19 (broadcastInDim S256x3x224x224 ![0, 1, 2, 3] bcast_S256x1x1x1_S256x3x224x224_0_1_2_3 : 𝒞[S256x1x1x1, .f32] → 𝒞[S256x3x224x224, .f32]),
    binary main_v16 main_v19 main_v20 (mulf : 𝒞[S256x3x224x224, .f32] → 𝒞[S256x3x224x224, .f32] → 𝒞[S256x3x224x224, .f32]),
    unary main_v11 main_v21 (broadcastInDim S256x3x224x224 ![0, 1, 2, 3] bcast_S256x1x1x1_S256x3x224x224_0_1_2_3 : 𝒞[S256x1x1x1, .f32] → 𝒞[S256x3x224x224, .f32]),
    binary main_v21 main_v20 main_v22 (addf : 𝒞[S256x3x224x224, .f32] → 𝒞[S256x3x224x224, .f32] → 𝒞[S256x3x224x224, .f32]),
    nullary main_cst_7 (constant S_ .f32 0x00000000#32),
    nullary main_cst_8 (constant S_ .f32 0x3F800000#32),
    TRef.unary (.of main_cst_7) main_call3.v0 id,
    TRef.unary main_call3.v0 main_call3.v1 (broadcastInDim S256x3x224x224 ![] bcast_S_S256x3x224x224),
    TRef.binary main_call3.v1 (.of main_v22) main_call3.v2 maximumf,
    TRef.unary (.of main_cst_8) main_call3.v3 id,
    TRef.unary main_call3.v3 main_call3.v4 (broadcastInDim S256x3x224x224 ![] bcast_S_S256x3x224x224),
    TRef.binary main_call3.v4 main_call3.v2 main_call3.v5 minimumf,
    -- inversion blend: (1 - mag) * x + mag * (1 - x)
    nullary main_cst_9 (constant S_ .f32 0x3F800000#32),
    unary main_cst_9 main_v24 (broadcastInDim S256x1x1x1 ![] bcast_S_S256x1x1x1 : 𝒞[S_, .f32] → 𝒞[S256x1x1x1, .f32]),
    binary main_v24 main_v7 main_v25 (subf : 𝒞[S256x1x1x1, .f32] → 𝒞[S256x1x1x1, .f32] → 𝒞[S256x1x1x1, .f32]),
    unary main_v25 main_v26 (broadcastInDim S256x3x224x224 ![0, 1, 2, 3] bcast_S256x1x1x1_S256x3x224x224_0_1_2_3 : 𝒞[S256x1x1x1, .f32] → 𝒞[S256x3x224x224, .f32]),
    binary main_v26 main_arg0 main_v27 (mulf : 𝒞[S256x3x224x224, .f32] → 𝒞[S256x3x224x224, .f32] → 𝒞[S256x3x224x224, .f32]),
    nullary main_cst_10 (constant S_ .f32 0x3F800000#32),
    unary main_cst_10 main_v28 (broadcastInDim S256x3x224x224 ![] bcast_S_S256x3x224x224 : 𝒞[S_, .f32] → 𝒞[S256x3x224x224, .f32]),
    binary main_v28 main_arg0 main_v29 (subf : 𝒞[S256x3x224x224, .f32] → 𝒞[S256x3x224x224, .f32] → 𝒞[S256x3x224x224, .f32]),
    unary main_v7 main_v30 (broadcastInDim S256x3x224x224 ![0, 1, 2, 3] bcast_S256x1x1x1_S256x3x224x224_0_1_2_3 : 𝒞[S256x1x1x1, .f32] → 𝒞[S256x3x224x224, .f32]),
    binary main_v30 main_v29 main_v31 (mulf : 𝒞[S256x3x224x224, .f32] → 𝒞[S256x3x224x224, .f32] → 𝒞[S256x3x224x224, .f32]),
    binary main_v27 main_v31 main_v32 (addf : 𝒞[S256x3x224x224, .f32] → 𝒞[S256x3x224x224, .f32] → 𝒞[S256x3x224x224, .f32]),
    -- gain: clip(x * (1 + mag))
    nullary main_cst_11 (constant S_ .f32 0x3F800000#32),
    unary main_cst_11 main_v33 (broadcastInDim S256x1x1x1 ![] bcast_S_S256x1x1x1 : 𝒞[S_, .f32] → 𝒞[S256x1x1x1, .f32]),
    binary main_v33 main_v7 main_v34 (addf : 𝒞[S256x1x1x1, .f32] → 𝒞[S256x1x1x1, .f32] → 𝒞[S256x1x1x1, .f32]),
    unary main_v34 main_v35 (broadcastInDim S256x3x224x224 ![0, 1, 2, 3] bcast_S256x1x1x1_S256x3x224x224_0_1_2_3 : 𝒞[S256x1x1x1, .f32] → 𝒞[S256x3x224x224, .f32]),
    binary main_arg0 main_v35 main_v36 (mulf : 𝒞[S256x3x224x224, .f32] → 𝒞[S256x3x224x224, .f32] → 𝒞[S256x3x224x224, .f32]),
    nullary main_cst_12 (constant S_ .f32 0x00000000#32),
    nullary main_cst_13 (constant S_ .f32 0x3F800000#32),
    TRef.unary (.of main_cst_12) main_call4.v0 id,
    TRef.unary main_call4.v0 main_call4.v1 (broadcastInDim S256x3x224x224 ![] bcast_S_S256x3x224x224),
    TRef.binary main_call4.v1 (.of main_v36) main_call4.v2 maximumf,
    TRef.unary (.of main_cst_13) main_call4.v3 id,
    TRef.unary main_call4.v3 main_call4.v4 (broadcastInDim S256x3x224x224 ![] bcast_S_S256x3x224x224),
    TRef.binary main_call4.v4 main_call4.v2 main_call4.v5 minimumf,
    -- the stack of the four transforms along a new axis 1, and the quotient as its index
    unary main_v14 main_v38 (broadcastInDim S256x1x3x224x224 ![0, 2, 3, 4] bcast_S256x3x224x224_S256x1x3x224x224_0_2_3_4 : 𝒞[S256x3x224x224, .f32] → 𝒞[S256x1x3x224x224, .f32]),
    unary main_v23 main_v39 (broadcastInDim S256x1x3x224x224 ![0, 2, 3, 4] bcast_S256x3x224x224_S256x1x3x224x224_0_2_3_4 : 𝒞[S256x3x224x224, .f32] → 𝒞[S256x1x3x224x224, .f32]),
    unary main_v32 main_v40 (broadcastInDim S256x1x3x224x224 ![0, 2, 3, 4] bcast_S256x3x224x224_S256x1x3x224x224_0_2_3_4 : 𝒞[S256x3x224x224, .f32] → 𝒞[S256x1x3x224x224, .f32]),
    unary main_v37 main_v41 (broadcastInDim S256x1x3x224x224 ![0, 2, 3, 4] bcast_S256x3x224x224_S256x1x3x224x224_0_2_3_4 : 𝒞[S256x3x224x224, .f32] → 𝒞[S256x1x3x224x224, .f32]),
    nary ![main_v38, main_v39, main_v40, main_v41] main_v42 (fun u => concatenate S256x4x3x224x224 1 [⟨S256x1x3x224x224, u 0⟩, ⟨S256x1x3x224x224, u 1⟩, ⟨S256x1x3x224x224, u 2⟩, ⟨S256x1x3x224x224, u 3⟩] concatenates_S256x1x3x224x224_S256x1x3x224x224_S256x1x3x224x224_S256x1x3x224x224_S256x4x3x224x224_d1),
    unary main_v0 main_v43 (broadcastInDim S256x1x1x1x1 ![0] bcast_S256_S256x1x1x1x1_0 : 𝒞[S256, .i32] → 𝒞[S256x1x1x1x1, .i32]),
    -- take_along_axis(%42, %43)
    TRef.nullary main_call5.c (constantI S_ 32 0#32),
    TRef.unary main_call5.c main_call5.v0 (broadcastInDim S256x1x1x1x1 ![] bcast_S_S256x1x1x1x1),
    TRef.binary (.of main_v43) main_call5.v0 main_call5.v1 (cmpi .slt),
    TRef.nullary main_call5.c_0 (constantI S_ 32 4#32),
    TRef.unary main_call5.c_0 main_call5.v2 (broadcastInDim S256x1x1x1x1 ![] bcast_S_S256x1x1x1x1),
    TRef.binary (.of main_v43) main_call5.v2 main_call5.v3 addi,
    TRef.ternary main_call5.v1 main_call5.v3 (.of main_v43) main_call5.v4 select,
    TRef.reshape main_call5.v4 main_call5.v5 rfl shapeCasts_S256x1x1x1x1_S256x1x1,
    TRef.nullary main_call5.c_1 (constantI S1 32 3#32),
    TRef.nullary main_call5.c_2 (constantI S_ 32 0#32),
    TRef.unary main_call5.c_2 main_call5.v6 (broadcastInDim S256x1x1 ![] bcast_S_S256x1x1),
    TRef.binary main_call5.v5 main_call5.v6 main_call5.v7 (cmpi .sge),
    TRef.unary main_call5.c_1 main_call5.v8 (broadcastInDim S1x1x1 ![2] bcast_S1_S1x1x1_2),
    TRef.unary main_call5.v8 main_call5.v9 (broadcastInDim S256x1x1 ![0, 1, 2] bcast_S1x1x1_S256x1x1_0_1_2),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S256x1x1_S256x1_d2 h_S_),
    TRef.binary (.of main_v42) main_call5.v5 main_call5.v13 (fun x i => Host.gather gather_S256x4x3x224x224_S256x1x1_S256x1x3x224x224_234_1_0_0_1_2_113224224 x i),
    TRef.unary main_call5.v12 main_call5.v14 (broadcastInDim S256x1x3x224x224 ![0, 1] bcast_S256x1_S256x1x3x224x224_0_1),
    TRef.nullary main_call5.cst (constant S_ .f32 0x7FC00000#32),
    TRef.unary main_call5.cst main_call5.v15 (broadcastInDim S256x1x3x224x224 ![] bcast_S_S256x1x3x224x224),
    TRef.ternary main_call5.v14 main_call5.v13 main_call5.v15 main_call5.v16 select,
    reshape main_v44 main_v45 rfl shapeCasts_S256x1x3x224x224_S256x3x224x224,
    -- the mask word at the op index (a negative index wrapped by 36), positive or not
    nullary main_c_14 (constantI S_ 32 0#32),
    unary main_c_14 main_v46 (broadcastInDim S256 ![] bcast_S_S256 : 𝒞[S_, .i32] → 𝒞[S256, .i32]),
    binary main_arg1 main_v46 main_v47 (cmpi .slt : 𝒞[S256, .i32] → 𝒞[S256, .i32] → 𝒞[S256, .i1]),
    nullary main_c_15 (constantI S_ 32 36#32),
    unary main_c_15 main_v48 (broadcastInDim S256 ![] bcast_S_S256 : 𝒞[S_, .i32] → 𝒞[S256, .i32]),
    binary main_arg1 main_v48 main_v49 (addi : 𝒞[S256, .i32] → 𝒞[S256, .i32] → 𝒞[S256, .i32]),
    ternary main_v47 main_v49 main_arg1 main_v50 (select : 𝒞[S256, .i1] → 𝒞[S256, .i32] → 𝒞[S256, .i32] → 𝒞[S256, .i32]),
    unary main_v50 main_v51 (broadcastInDim S256x1 ![0] bcast_S256_S256x1_0 : 𝒞[S256, .i32] → 𝒞[S256x1, .i32]),
    binary main_arg2 main_v51 main_v52 ((fun x i => Host.gather gather_S36_S256x1_S256_n_0_n_n_0_1_1 x i) : 𝒞[S36, .i32] → 𝒞[S256x1, .i32] → 𝒞[S256, .i32]),
    nullary main_c_16 (constantI S_ 32 0#32),
    unary main_c_16 main_v53 (broadcastInDim S256 ![] bcast_S_S256 : 𝒞[S_, .i32] → 𝒞[S256, .i32]),
    binary main_v52 main_v53 main_v54 (cmpi .sgt : 𝒞[S256, .i32] → 𝒞[S256, .i32] → 𝒞[S256, .i1]),
    unary main_v54 main_v55 (broadcastInDim S256x1x1x1 ![0] bcast_S256_S256x1x1x1_0 : 𝒞[S256, .i1] → 𝒞[S256x1x1x1, .i1]),
    -- where(%55, %45, %arg0)
    TRef.unary (.of main_v55 : TRef sig ⟨S256x1x1x1, .i1⟩) main_call6.v0 (broadcastInDim S256x3x224x224 ![0, 1, 2, 3] bcast_S256x1x1x1_S256x3x224x224_0_1_2_3),
    TRef.ternary main_call6.v0 (.of main_v45) (.of main_arg0) main_call6.v1 select ]

set_option maxRecDepth 8192 in
set_option maxHeartbeats 4000000 in
/-- @main is that straight line: the functions' definitions unfolded at their calls and the records at their fields,
    both sides are one chain of steps once sequencing is reassociated. -/
theorem main_eq (c : Dev nD) : main (F := F) c = seq ops := by
  simp only [main, main_part0, main_part1, fn_floor_divide.body, fn_where.body, fn_remainder.body, fn_where_0.body,
    fn_clip.body, fn_take_along_axis.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub ..,
    -- floor_divide
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub ..,
    -- remainder
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    -- the magnitude
    nullary_bufs_sub .., unary_bufs_sub .., binary_bufs_sub .., unary_bufs_sub .., nullary_bufs_sub .., unary_bufs_sub ..,
    binary_bufs_sub .., unary_bufs_sub ..,
    -- the mean
    nullary_bufs_sub .., binary_bufs_sub .., unary_bufs_sub .., nullary_bufs_sub .., unary_bufs_sub .., binary_bufs_sub ..,
    -- brightness and its clip
    unary_bufs_sub .., binary_bufs_sub .., nullary_bufs_sub .., nullary_bufs_sub ..,
    unary_bufs_sub .., unary_bufs_sub .., binary_bufs_sub .., unary_bufs_sub .., unary_bufs_sub .., binary_bufs_sub ..,
    -- contrast and its clip
    unary_bufs_sub .., binary_bufs_sub .., nullary_bufs_sub .., unary_bufs_sub .., binary_bufs_sub .., unary_bufs_sub ..,
    binary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    -- the inversion blend
    nullary_bufs_sub .., unary_bufs_sub .., binary_bufs_sub .., unary_bufs_sub .., binary_bufs_sub .., nullary_bufs_sub ..,
    unary_bufs_sub .., binary_bufs_sub .., unary_bufs_sub .., binary_bufs_sub .., binary_bufs_sub ..,
    -- gain and its clip
    nullary_bufs_sub .., unary_bufs_sub .., binary_bufs_sub .., unary_bufs_sub .., binary_bufs_sub .., nullary_bufs_sub ..,
    nullary_bufs_sub ..,
    unary_bufs_sub .., unary_bufs_sub .., binary_bufs_sub .., unary_bufs_sub .., unary_bufs_sub .., binary_bufs_sub ..,
    -- the stack and its index
    unary_bufs_sub .., unary_bufs_sub .., unary_bufs_sub .., unary_bufs_sub .., nary_bufs_sub .., unary_bufs_sub ..,
    -- take_along_axis
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub ..,
    -- the mask word
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    unary_bufs_sub ..,
    -- the final select
    unary_bufs_sub .., ternary_bufs_sub ..⟩

/-- Every weakly fair execution of @main terminates, every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRead.lean ====
/-
  The reference's result as ONE term of its three arguments — the composition of @main's host operations — and that term
  read at a pixel: for transform types in range (0 … 3) the index into the stack of the four transformed images is the
  type itself, the range test of take_along_axis passes, the gather picks that transform's pixel, and the final select
  keeps it where the op is applied and the input pixel where it is not: `outR`.
-/
import proofs.«427089_j2173253452143_4_alg».proof.Proof.Gen.ReferenceIdeal
import proofs.«427089_j2173253452143_4_alg».proof.Proof.Spec
import Idealize.ShloMosaic.Lib.Pipeline.Value
import Idealize.ShloMosaic.Lib.ValueLayout
import Idealize.ShloMosaic.PureOps.Ideal.Laws

noncomputable section

namespace Cert.ReferenceIdeal.RefRead

open Cert.ReferenceIdeal Cert.ReferenceIdeal.Gen Cert.RandAug
open Idealize.ShloMosaic Idealize.ShloMosaic.ValueIdx

/-- The mask words gathered at the op indices, a negative index wrapped by 36 first (jnp's `apply_mask[sample]`). -/
def maskWords (A : IVec S36 32) (S : IVec S256 32) : IVec S256 32 :=
  Host.gather gather_S36_S256x1_S256_n_0_n_n_0_1_1 A
    (broadcastInDim S256x1 ![0] Facts₀.bcast_S256_S256x1_0
      (select (cmpi .slt S (broadcastInDim S256 ![] Facts₀.bcast_S_S256 (constantI S_ 32 0#32)))
        (addi S (broadcastInDim S256 ![] Facts₀.bcast_S_S256 (constantI S_ 32 36#32))) S))

/-! ## The layers of @main, each as the operations spell it -/

/-- A rank-0 value spread over the 256 images. -/
def b256 {α : Type} (x : S_.Idx → α) : S256.Idx → α := broadcastInDim S256 ![] Facts₀.bcast_S_S256 x
/-- A rank-0 value spread over the per-image column `[256, 1, 1, 1]`. -/
def bCol {α : Type} (x : S_.Idx → α) : S256x1x1x1.Idx → α :=
  broadcastInDim S256x1x1x1 ![] Facts₀.bcast_S_S256x1x1x1 x
/-- A rank-0 value spread over every pixel. -/
def bPix {α : Type} (x : S_.Idx → α) : S256x3x224x224.Idx → α :=
  broadcastInDim S256x3x224x224 ![] Facts₀.bcast_S_S256x3x224x224 x
/-- A per-image value as a column `[256, 1, 1, 1]`. -/
def toCol {α : Type} (x : S256.Idx → α) : S256x1x1x1.Idx → α :=
  broadcastInDim S256x1x1x1 ![0] Facts₀.bcast_S256_S256x1x1x1_0 x
/-- A per-image column spread over the image's pixels. -/
def colPix {α : Type} (x : S256x1x1x1.Idx → α) : S256x3x224x224.Idx → α :=
  broadcastInDim S256x3x224x224 ![0, 1, 2, 3] Facts₀.bcast_S256x1x1x1_S256x3x224x224_0_1_2_3 x
/-- An array of images with a unit axis inserted after the image axis. -/
def unitAx {α : Type} (x : S256x3x224x224.Idx → α) : S256x1x3x224x224.Idx → α :=
  broadcastInDim S256x1x3x224x224 ![0, 2, 3, 4] Facts₀.bcast_S256x3x224x224_S256x1x3x224x224_0_2_3_4 x

/-- The rank-0 literals. -/
def cI (n : BitVec 32) : IVec S_ 32 := constantI S_ 32 n
def cF (n : BitVec 32) : FVec Ideal S_ .f32 := constant S_ .f32 n

/-- `S // 9` (floor_divide): the truncated quotient, less one where the signs differ and the remainder is not zero. -/
def tfV (S : IVec S256 32) : IVec S256 32 :=
  select
    (andi (cmpi .ne (signi S) (b256 (signi (id (cI 9#32)))))
      (cmpi .ne (Host.remsi S (b256 (id (cI 9#32)))) (b256 (cI 0#32))))
    (subi (Host.divsi S (b256 (id (cI 9#32)))) (b256 (cI 1#32)))
    (Host.divsi S (b256 (id (cI 9#32))))

/-- The divisor 9 as remainder's zero guard leaves it. -/
def nineV : IVec S_ 32 := select (cmpi .eq (id (cI 9#32)) (cI 0#32)) (cI 1#32) (id (cI 9#32))

/-- `S % 9` (remainder): the truncated remainder, plus the divisor where it is not zero and its sign differs from the
    divisor's. -/
def remV (S : IVec S256 32) : IVec S256 32 :=
  select
    (andi
      (cmpi .ne (cmpi .slt (Host.remsi S (b256 nineV)) (b256 (cI 0#32))) (b256 (cmpi .slt nineV (cI 0#32))))
      (cmpi .ne (Host.remsi S (b256 nineV)) (b256 (cI 0#32))))
    (addi (Host.remsi S (b256 nineV)) (b256 nineV))
    (Host.remsi S (b256 nineV))

/-- The magnitudes `((S % 9) + 1) / 10`, one per image. -/
def magV (S : IVec S256 32) : FVec Ideal S256 .f32 :=
  Host.divf (sitofp .f32 (addi (remV S) (b256 (cI 1#32)))) (b256 (cF 0x41200000#32))
/-- The magnitudes as a column. -/
def magB (S : IVec S256 32) : FVec Ideal S256x1x1x1 .f32 := toCol (magV S)

/-- The image means as a column: the sums over the three pixel axes, divided by 150528. -/
def meanB (X : FVec Ideal S256x3x224x224 .f32) : FVec Ideal S256x1x1x1 .f32 :=
  Host.divf
    (toCol (Host.reduceAdd X (cF 0x00000000#32) Facts₀.reducesTo_S256x3x224x224_S256_d1_2_3 Facts₀.h_S_))
    (bCol (cF 0x48130000#32))

/-- jnp.clip of an array to the rank-0 bounds `lo`, `hi`: the maximum with `lo`, then the minimum with `hi`. -/
def clipV (y : FVec Ideal S256x3x224x224 .f32) (lo hi : FVec Ideal S_ .f32) : FVec Ideal S256x3x224x224 .f32 :=
  minimumf (bPix (id hi)) (maximumf (bPix (id lo)) y)

/-- Brightness: clip (X + μ). -/
def t0V (X : FVec Ideal S256x3x224x224 .f32) (S : IVec S256 32) : FVec Ideal S256x3x224x224 .f32 :=
  clipV (addf X (colPix (magB S))) (cF 0x00000000#32) (cF 0x3F800000#32)
/-- Contrast: clip (M + (X − M)·(1 + μ)). -/
def t1V (X : FVec Ideal S256x3x224x224 .f32) (S : IVec S256 32) : FVec Ideal S256x3x224x224 .f32 :=
  clipV
    (addf (colPix (meanB X))
      (mulf (subf X (colPix (meanB X))) (colPix (addf (bCol (cF 0x3F800000#32)) (magB S)))))
    (cF 0x00000000#32) (cF 0x3F800000#32)
/-- Invert: (1 − μ)·X + μ·(1 − X). -/
def t2V (X : FVec Ideal S256x3x224x224 .f32) (S : IVec S256 32) : FVec Ideal S256x3x224x224 .f32 :=
  addf (mulf (colPix (subf (bCol (cF 0x3F800000#32)) (magB S))) X)
    (mulf (colPix (magB S)) (subf (bPix (cF 0x3F800000#32)) X))
/-- Gain: clip (X·(1 + μ)). -/
def t3V (X : FVec Ideal S256x3x224x224 .f32) (S : IVec S256 32) : FVec Ideal S256x3x224x224 .f32 :=
  clipV (mulf X (colPix (addf (bCol (cF 0x3F800000#32)) (magB S)))) (cF 0x00000000#32) (cF 0x3F800000#32)

/-- The four transformed arrays stacked along a new axis after the image axis. -/
def stackV (X : FVec Ideal S256x3x224x224 .f32) (S : IVec S256 32) : FVec Ideal S256x4x3x224x224 .f32 :=
  concatenate S256x4x3x224x224 1
    [⟨S256x1x3x224x224, unitAx (t0V X S)⟩, ⟨S256x1x3x224x224, unitAx (t1V X S)⟩,
      ⟨S256x1x3x224x224, unitAx (t2V X S)⟩, ⟨S256x1x3x224x224, unitAx (t3V X S)⟩]
    Facts₀.concatenates_S256x1x3x224x224_S256x1x3x224x224_S256x1x3x224x224_S256x1x3x224x224_S256x4x3x224x224_d1

/-- The transform types as take_along_axis receives them: `[256, 1, 1, 1, 1]`. -/
def tfB (S : IVec S256 32) : IVec S256x1x1x1x1 32 :=
  broadcastInDim S256x1x1x1x1 ![0] Facts₀.bcast_S256_S256x1x1x1x1_0 (tfV S)

/-- The index into the stack: a negative type wrapped by 4, reshaped to `[256, 1, 1]`. -/
def idxV (S : IVec S256 32) : IVec S256x1x1 32 :=
  shapeCast S256x1x1
    (select
      (cmpi .slt (tfB S) (broadcastInDim S256x1x1x1x1 ![] Facts₀.bcast_S_S256x1x1x1x1 (cI 0#32)))
      (addi (tfB S) (broadcastInDim S256x1x1x1x1 ![] Facts₀.bcast_S_S256x1x1x1x1 (cI 4#32)))
      (tfB S))
    Facts₀.shapeCasts_S256x1x1x1x1_S256x1x1

/-- take_along_axis's range test, one bit per image: `0 ≤ index ≤ 3`, folded by `and` over the index vector's one
    component. -/
def okV (S : IVec S256 32) : IVec S256x1 1 :=
  Host.reduce IntOp.andi
    (andi
      (cmpi .sge (idxV S) (broadcastInDim S256x1x1 ![] Facts₀.bcast_S_S256x1x1 (cI 0#32)))
      (cmpi .sle (idxV S)
        (broadcastInDim S256x1x1 ![0, 1, 2] Facts₀.bcast_S1x1x1_S256x1x1_0_1_2
          (broadcastInDim S1x1x1 ![2] Facts₀.bcast_S1_S1x1x1_2 (constantI S1 32 3#32)))))
    (constantI S_ 1 1#1) Facts₀.reducesTo_S256x1x1_S256x1_d2 Facts₀.h_S_

/-- take_along_axis: the stack gathered at the index where the range test passes, NaN where it does not. -/
def pickV (X : FVec Ideal S256x3x224x224 .f32) (S : IVec S256 32) : FVec Ideal S256x1x3x224x224 .f32 :=
  select
    (broadcastInDim S256x1x3x224x224 ![0, 1] Facts₀.bcast_S256x1_S256x1x3x224x224_0_1 (okV S))
    (Host.gather gather_S256x4x3x224x224_S256x1x1_S256x1x3x224x224_234_1_0_0_1_2_113224224 (stackV X S) (idxV S))
    (broadcastInDim S256x1x3x224x224 ![] Facts₀.bcast_S_S256x1x3x224x224 (cF 0x7FC00000#32))

/-- "The op is applied", one bit per image, as a column. -/
def apB (A : IVec S36 32) (S : IVec S256 32) : IVec S256x1x1x1 1 :=
  toCol (cmpi .sgt (maskWords A S) (b256 (cI 0#32)))

/-- @main's result buffer as the composed term of the three arguments: the picked transform where the op is applied, the
    input where it is not. -/
def refTerm (X : FVec Ideal S256x3x224x224 .f32) (S : IVec S256 32) (A : IVec S36 32) :
    FVec Ideal S256x3x224x224 .f32 :=
  select (colPix (apB A S))
    (shapeCast S256x3x224x224 (pickV X S) Facts₀.shapeCasts_S256x1x3x224x224_S256x3x224x224)
    X

/-! ## The per-image scalars read at an image -/

theorem tfV_apply (S : IVec S256 32) (i : S256.Idx) : tfV S i = tfS (S i) := rfl
theorem nineV_apply (j : S_.Idx) : nineV j = nineS := rfl
theorem remV_apply (S : IVec S256 32) (i : S256.Idx) : remV S i = remS (S i) := rfl
theorem magV_apply (S : IVec S256 32) (i : S256.Idx) : magV S i = magS (S i) := rfl

/-! ## The broadcasts read at an index -/

theorem toCol_apply {α : Type} (x : S256.Idx → α) (j : S256x1x1x1.Idx) : toCol x j = x (ix1 (j 0)) := by
  unfold toCol
  refine broadcastInDim_apply _ _ x j (ix1 (j 0)) fun a => ?_
  fin_cases a; rfl

theorem colPix_apply {α : Type} (x : S256x1x1x1.Idx → α) (j : S256x3x224x224.Idx) :
    colPix x j = x (ix4 (j 0) 0 0 0) := by
  unfold colPix
  refine broadcastInDim_apply _ _ x j (ix4 (j 0) 0 0 0) fun a => ?_
  fin_cases a <;> rfl

theorem unitAx_apply {α : Type} (x : S256x3x224x224.Idx → α) (j : S256x1x3x224x224.Idx) :
    unitAx x j = x (ix4 (j 0) (j 2) (j 3) (j 4)) := by
  unfold unitAx
  refine broadcastInDim_apply _ _ x j (ix4 (j 0) (j 2) (j 3) (j 4)) fun a => ?_
  fin_cases a <;> rfl

/-! ## The mean and the four transforms read at a pixel -/

theorem magB_apply (S : IVec S256 32) (j : S256x1x1x1.Idx) : magB S j = magS (S (ix1 (j 0))) := by
  unfold magB; rw [toCol_apply]; rfl

theorem meanB_apply (X : FVec Ideal S256x3x224x224 .f32) (j : S256x1x1x1.Idx) : meanB X j = rMean X (j 0) := by
  show FloatOps.hostDivf (toCol _ j) _ = _
  rw [toCol_apply]; rfl

theorem t0V_apply (X : FVec Ideal S256x3x224x224 .f32) (S : IVec S256 32) (i : S256x3x224x224.Idx) :
    t0V X S i = tBright (magS (S (ix1 (img i)))) (X i) := by
  show FloatOps.minimumf _ (FloatOps.maximumf _ (FloatOps.addf (X i) (colPix (magB S) i))) = _
  rw [colPix_apply, magB_apply]; rfl

theorem t1V_apply (X : FVec Ideal S256x3x224x224 .f32) (S : IVec S256 32) (i : S256x3x224x224.Idx) :
    t1V X S i = tContr (magS (S (ix1 (img i)))) (X i) (rMean X (img i)) := by
  show FloatOps.minimumf _ (FloatOps.maximumf _ (FloatOps.addf (colPix (meanB X) i)
    (FloatOps.mulf (FloatOps.subf (X i) (colPix (meanB X) i)) (colPix (addf (bCol (cF 0x3F800000#32)) (magB S)) i)))) = _
  rw [colPix_apply, colPix_apply, meanB_apply]
  show FloatOps.minimumf _ (FloatOps.maximumf _ (FloatOps.addf _
    (FloatOps.mulf _ (FloatOps.addf _ (magB S (ix4 (i 0) 0 0 0)))))) = _
  rw [magB_apply]; rfl

theorem t2V_apply (X : FVec Ideal S256x3x224x224 .f32) (S : IVec S256 32) (i : S256x3x224x224.Idx) :
    t2V X S i = tInv (magS (S (ix1 (img i)))) (X i) := by
  show FloatOps.addf (FloatOps.mulf (colPix (subf (bCol (cF 0x3F800000#32)) (magB S)) i) (X i))
    (FloatOps.mulf (colPix (magB S) i) (FloatOps.subf _ (X i))) = _
  rw [colPix_apply, colPix_apply]
  show FloatOps.addf (FloatOps.mulf (FloatOps.subf _ (magB S (ix4 (i 0) 0 0 0))) (X i))
    (FloatOps.mulf (magB S (ix4 (i 0) 0 0 0)) (FloatOps.subf _ (X i))) = _
  rw [magB_apply]; rfl

theorem t3V_apply (X : FVec Ideal S256x3x224x224 .f32) (S : IVec S256 32) (i : S256x3x224x224.Idx) :
    t3V X S i = tGain (magS (S (ix1 (img i)))) (X i) := by
  show FloatOps.minimumf _ (FloatOps.maximumf _ (FloatOps.mulf (X i)
    (colPix (addf (bCol (cF 0x3F800000#32)) (magB S)) i))) = _
  rw [colPix_apply]
  show FloatOps.minimumf _ (FloatOps.maximumf _ (FloatOps.mulf (X i) (FloatOps.addf _ (magB S (ix4 (i 0) 0 0 0))))) = _
  rw [magB_apply]; rfl

/-! ## The index into the stack and the range test -/

/-- take_along_axis's wrap of one index: plus 4 where negative. -/
def wrapS (t : BitVec 32) : BitVec 32 := Scalar.select (IntOp.cmpi .slt t 0#32) (IntOp.addi t 4#32) t

theorem tfB_apply (S : IVec S256 32) (k : S256x1x1x1x1.Idx) : tfB S k = tfS (S (ix1 (k 0))) := by
  unfold tfB
  refine (broadcastInDim_apply _ _ (tfV S) k (ix1 (k 0)) fun a => ?_).trans rfl
  fin_cases a; rfl

theorem idxV_apply (S : IVec S256 32) (j : S256x1x1.Idx) : idxV S j = wrapS (tfS (S (ix1 (j 0)))) := by
  unfold idxV
  refine (shapeCast_apply _ _ j (ix5 (n0 := 256) (n1 := 1) (n2 := 1) (n3 := 1) (n4 := 1) (j 0) 0 0 0 0) ?_).trans ?_
  · have h1 : (j 1).val < 1 := (j 1).isLt
    have h2 : (j 2).val < 1 := (j 2).isLt
    rw [Shape.rowMajor_val_five, Shape.rowMajor_val_three]
    show (((((j 0).val * 1 + 0) * 1 + 0) * 1 + 0) * 1 + 0 = ((j 0).val * 1 + (j 1).val) * 1 + (j 2).val)
    omega
  show Scalar.select (IntOp.cmpi .slt (tfB S _) _) (IntOp.addi (tfB S _) _) (tfB S _) = _
  rw [tfB_apply]; rfl

/-- A type in range is its own wrapped index. -/
theorem wrapS_of_range {t : BitVec 32} (ht : t = 0#32 ∨ t = 1#32 ∨ t = 2#32 ∨ t = 3#32) : wrapS t = t := by
  rcases ht with rfl | rfl | rfl | rfl <;> decide

/-- A left fold by \`and\` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- With every type in range the range test passes at every image. -/
theorem okV_eq_one (S : IVec S256 32)
    (ht : ∀ b : Fin 256, tfS (S (ix1 b)) = 0#32 ∨ tfS (S (ix1 b)) = 1#32 ∨ tfS (S (ix1 b)) = 2#32 ∨ tfS (S (ix1 b)) = 3#32)
    (j : S256x1.Idx) : okV S j = 1#1 := by
  unfold okV
  rw [Host.reduce_eq_foldl]
  refine foldl_andi_one _ _ fun i _ => ?_
  show IntOp.andi (IntOp.cmpi .sge (idxV S i) 0#32) (IntOp.cmpi .sle (idxV S i) 3#32) = 1#1
  rw [idxV_apply, wrapS_of_range (ht (i 0))]
  rcases ht (i 0) with h | h | h | h <;> rw [h] <;> decide

/-! ## The stack read at each of its four positions -/

theorem stackV_apply0 (X : FVec Ideal S256x3x224x224 .f32) (S : IVec S256 32) (j : S256x4x3x224x224.Idx)
    (hj : (j 1).val = 0) : stackV X S j = t0V X S (ix4 (j 0) (j 2) (j 3) (j 4)) := by
  unfold stackV
  refine (concatenate_apply_piece 1 _ _ j 0 (by show 0 < 4; decide) S256x1x3x224x224 (unitAx (t0V X S)) rfl rfl 0 rfl
    (ix5 (n0 := 256) (n1 := 1) (n2 := 3) (n3 := 224) (n4 := 224) (j 0) 0 (j 2) (j 3) (j 4)) (fun b hb => ?_) ?_).trans ?_
  · fin_cases b
    · rfl
    · exact absurd rfl hb
    · rfl
    · rfl
    · rfl
  · show 0 + 0 = (j 1).val
    omega
  · rw [unitAx_apply]

theorem stackV_apply1 (X : FVec Ideal S256x3x224x224 .f32) (S : IVec S256 32) (j : S256x4x3x224x224.Idx)
    (hj : (j 1).val = 1) : stackV X S j = t1V X S (ix4 (j 0) (j 2) (j 3) (j 4)) := by
  unfold stackV
  refine (concatenate_apply_piece 1 _ _ j 1 (by show 1 < 4; decide) S256x1x3x224x224 (unitAx (t1V X S)) rfl rfl 1 rfl
    (ix5 (n0 := 256) (n1 := 1) (n2 := 3) (n3 := 224) (n4 := 224) (j 0) 0 (j 2) (j 3) (j 4)) (fun b hb => ?_) ?_).trans ?_
  · fin_cases b
    · rfl
    · exact absurd rfl hb
    · rfl
    · rfl
    · rfl
  · show 1 + 0 = (j 1).val
    omega
  · rw [unitAx_apply]

theorem stackV_apply2 (X : FVec Ideal S256x3x224x224 .f32) (S : IVec S256 32) (j : S256x4x3x224x224.Idx)
    (hj : (j 1).val = 2) : stackV X S j = t2V X S (ix4 (j 0) (j 2) (j 3) (j 4)) := by
  unfold stackV
  refine (concatenate_apply_piece 1 _ _ j 2 (by show 2 < 4; decide) S256x1x3x224x224 (unitAx (t2V X S)) rfl rfl 2 rfl
    (ix5 (n0 := 256) (n1 := 1) (n2 := 3) (n3 := 224) (n4 := 224) (j 0) 0 (j 2) (j 3) (j 4)) (fun b hb => ?_) ?_).trans ?_
  · fin_cases b
    · rfl
    · exact absurd rfl hb
    · rfl
    · rfl
    · rfl
  · show 2 + 0 = (j 1).val
    omega
  · rw [unitAx_apply]

theorem stackV_apply3 (X : FVec Ideal S256x3x224x224 .f32) (S : IVec S256 32) (j : S256x4x3x224x224.Idx)
    (hj : (j 1).val = 3) : stackV X S j = t3V X S (ix4 (j 0) (j 2) (j 3) (j 4)) := by
  unfold stackV
  refine (concatenate_apply_piece 1 _ _ j 3 (by show 3 < 4; decide) S256x1x3x224x224 (unitAx (t3V X S)) rfl rfl 3 rfl
    (ix5 (n0 := 256) (n1 := 1) (n2 := 3) (n3 := 224) (n4 := 224) (j 0) 0 (j 2) (j 3) (j 4)) (fun b hb => ?_) ?_).trans ?_
  · fin_cases b
    · rfl
    · exact absurd rfl hb
    · rfl
    · rfl
    · rfl
  · show 3 + 0 = (j 1).val
    omega
  · rw [unitAx_apply]

/-! ## The gather read at an index

Result index \`(b, u, c, h, w)\` reads the stack at image \`b\` (the batching axis), at the position the start index of image
\`b\` names — read signed and clamped into \`[0, 3]\` — and at the pixel \`(c, h, w)\` (the offset axes). -/

/-- take_along_axis's dimension numbers. -/
abbrev stackDims : GatherDims S256x4x3x224x224 S256x1x1 S256x1x3x224x224 :=
  gather_S256x4x3x224x224_S256x1x1_S256x1x3x224x224_234_1_0_0_1_2_113224224

theorem gather_apply {α : Type} (x : S256x4x3x224x224.Idx → α) (idx : IVec S256x1x1 32) (j : S256x1x3x224x224.Idx) :
    Host.gather stackDims x idx j
      = x (ix5 (n0 := 256) (n1 := 4) (n2 := 3) (n3 := 224) (n4 := 224) (j 0)
          ⟨min (idx (ix3 (n0 := 256) (n1 := 1) (n2 := 1) (j 0) 0 0)).toInt.toNat 3, by omega⟩ (j 2) (j 3) (j 4)) := by
  unfold Host.gather
  congr 1
  funext a
  refine Fin.ext ?_
  show GatherDims.start _ j idx a + GatherDims.batchCoord _ j a + GatherDims.offCoord _ j a = _
  fin_cases a
  · show 0 + (j 0).val + 0 = (j 0).val
    omega
  · have hsi : GatherDims.siIdx stackDims j ⟨0, Nat.one_pos⟩ = ix3 (n0 := 256) (n1 := 1) (n2 := 1) (j 0) 0 0 := by
      funext b
      refine Fin.ext ?_
      fin_cases b
      · rfl
      · have h1 : (j 1).val < 1 := (j 1).isLt
        show (j 1).val = 0
        omega
      · rfl
    show min (idx (GatherDims.siIdx stackDims j ⟨0, Nat.one_pos⟩)).toInt.toNat 3 + 0 + 0 = _
    rw [hsi]
    rfl
  · show 0 + 0 + (j 2).val = (j 2).val
    omega
  · show 0 + 0 + (j 3).val = (j 3).val
    omega
  · show 0 + 0 + (j 4).val = (j 4).val
    omega

/-! ## The picked transform and the result -/

theorem idxV_ix3 (S : IVec S256 32) (b : Fin 256) (u v : Fin 1) :
    idxV S (ix3 b u v) = wrapS (tfS (S (ix1 b))) := idxV_apply S _

theorem stackV_pos0 (X : FVec Ideal S256x3x224x224 .f32) (S : IVec S256 32) (b : Fin 256) (n : Nat) (hn : n < 4)
    (c : Fin 3) (h w : Fin 224) (h0 : n = 0) : stackV X S (ix5 b ⟨n, hn⟩ c h w) = t0V X S (ix4 b c h w) :=
  stackV_apply0 X S _ h0
theorem stackV_pos1 (X : FVec Ideal S256x3x224x224 .f32) (S : IVec S256 32) (b : Fin 256) (n : Nat) (hn : n < 4)
    (c : Fin 3) (h w : Fin 224) (h1 : n = 1) : stackV X S (ix5 b ⟨n, hn⟩ c h w) = t1V X S (ix4 b c h w) :=
  stackV_apply1 X S _ h1
theorem stackV_pos2 (X : FVec Ideal S256x3x224x224 .f32) (S : IVec S256 32) (b : Fin 256) (n : Nat) (hn : n < 4)
    (c : Fin 3) (h w : Fin 224) (h2 : n = 2) : stackV X S (ix5 b ⟨n, hn⟩ c h w) = t2V X S (ix4 b c h w) :=
  stackV_apply2 X S _ h2
theorem stackV_pos3 (X : FVec Ideal S256x3x224x224 .f32) (S : IVec S256 32) (b : Fin 256) (n : Nat) (hn : n < 4)
    (c : Fin 3) (h w : Fin 224) (h3 : n = 3) : stackV X S (ix5 b ⟨n, hn⟩ c h w) = t3V X S (ix4 b c h w) :=
  stackV_apply3 X S _ h3

/-- With every type in range, take_along_axis picks the transform the image's type names. -/
theorem pickV_apply (X : FVec Ideal S256x3x224x224 .f32) (S : IVec S256 32)
    (ht : ∀ b : Fin 256, tfS (S (ix1 b)) = 0#32 ∨ tfS (S (ix1 b)) = 1#32 ∨ tfS (S (ix1 b)) = 2#32 ∨ tfS (S (ix1 b)) = 3#32)
    (b : Fin 256) (u : Fin 1) (c : Fin 3) (h w : Fin 224) :
    pickV X S (ix5 b u c h w)
      = if tfS (S (ix1 b)) = 0#32 then tBright (magS (S (ix1 b))) (X (ix4 b c h w))
        else if tfS (S (ix1 b)) = 1#32 then tContr (magS (S (ix1 b))) (X (ix4 b c h w)) (rMean X b)
        else if tfS (S (ix1 b)) = 2#32 then tInv (magS (S (ix1 b))) (X (ix4 b c h w))
        else tGain (magS (S (ix1 b))) (X (ix4 b c h w)) := by
  show Scalar.select (okV S _) (Host.gather stackDims (stackV X S) (idxV S) (ix5 b u c h w)) _ = _
  rw [okV_eq_one S ht, select_one, gather_apply]
  show stackV X S (ix5 b ⟨min (idxV S (ix3 b 0 0)).toInt.toNat 3, _⟩ c h w) = _
  rcases ht b with e | e | e | e
  · have hk : min (idxV S (ix3 (n0 := 256) (n1 := 1) (n2 := 1) b 0 0)).toInt.toNat 3 = 0 := by
      rw [idxV_ix3, e]; decide
    rw [stackV_pos0 X S _ _ _ _ _ _ hk, t0V_apply, e]; rfl
  · have hk : min (idxV S (ix3 (n0 := 256) (n1 := 1) (n2 := 1) b 0 0)).toInt.toNat 3 = 1 := by
      rw [idxV_ix3, e]; decide
    rw [stackV_pos1 X S _ _ _ _ _ _ hk, t1V_apply, e]; rfl
  · have hk : min (idxV S (ix3 (n0 := 256) (n1 := 1) (n2 := 1) b 0 0)).toInt.toNat 3 = 2 := by
      rw [idxV_ix3, e]; decide
    rw [stackV_pos2 X S _ _ _ _ _ _ hk, t2V_apply, e]; rfl
  · have hk : min (idxV S (ix3 (n0 := 256) (n1 := 1) (n2 := 1) b 0 0)).toInt.toNat 3 = 3 := by
      rw [idxV_ix3, e]; decide
    rw [stackV_pos3 X S _ _ _ _ _ _ hk, t3V_apply, e]; rfl

theorem apB_apply (A : IVec S36 32) (S : IVec S256 32) (j : S256x1x1x1.Idx) :
    apB A S j = apS (maskWords A S (ix1 (j 0))) := by
  unfold apB; rw [toCol_apply]; rfl

/-- The reshape that drops the stack's unit axis, read at a pixel. -/
theorem pick_cast_apply (X : FVec Ideal S256x3x224x224 .f32) (S : IVec S256 32) (b : Fin 256) (c : Fin 3) (h w : Fin 224) :
    shapeCast S256x3x224x224 (pickV X S) Facts₀.shapeCasts_S256x1x3x224x224_S256x3x224x224 (ix4 b c h w)
      = pickV X S (ix5 b 0 c h w) :=
  shapeCast_apply _ _ _ _ (by
    rw [Shape.rowMajor_val_five, Shape.rowMajor_val_four]
    show (((b.val * 1 + 0) * 3 + c.val) * 224 + h.val) * 224 + w.val = ((b.val * 3 + c.val) * 224 + h.val) * 224 + w.val
    omega)

/-- With every image's transform type in range, the composed term is the specification's reference array. -/
theorem refTerm_eq (X : FVec Ideal S256x3x224x224 .f32) (S : IVec S256 32) (A : IVec S36 32)
    (ht : ∀ b : Fin 256, tfS (S (ix1 b)) = 0#32 ∨ tfS (S (ix1 b)) = 1#32 ∨ tfS (S (ix1 b)) = 2#32 ∨ tfS (S (ix1 b)) = 3#32) :
    refTerm X S A = outR X S (maskWords A S) := by
  funext i
  obtain ⟨b, c, h, w, rfl⟩ : ∃ (b : Fin 256) (c : Fin 3) (h w : Fin 224), i = ix4 b c h w := ⟨_, _, _, _, eq_ix4 i⟩
  show Scalar.select (colPix (apB A S) (ix4 b c h w))
    (shapeCast S256x3x224x224 (pickV X S) Facts₀.shapeCasts_S256x1x3x224x224_S256x3x224x224 (ix4 b c h w))
    (X (ix4 b c h w)) = _
  rw [colPix_apply, apB_apply, pick_cast_apply, pickV_apply X S ht]
  rfl

end Cert.ReferenceIdeal.RefRead

end
-- ==== Proof.RefValue.lean ====
/-
  The reference's run with its result named: the fold of @main's operations at the result buffer is the composed term
  of the arguments, which for transform types in range is the specification's reference array; the argument buffers
  are written by no operation.
-/
import proofs.«427089_j2173253452143_4_alg».proof.Proof.RefRun
import proofs.«427089_j2173253452143_4_alg».proof.Proof.RefRead

noncomputable section

namespace Cert.ReferenceIdeal.RValue

open Cert.ReferenceIdeal Cert.ReferenceIdeal.Gen Cert.ReferenceIdeal.RefRun Cert.ReferenceIdeal.RefRead Cert.RandAug
open Idealize.ShloMosaic Idealize.ShloMosaic.TcCoe Idealize.SL.Sem Idealize.ShloMosaic.StableHlo Idealize.ShloMosaic.ValueIdx

attribute [local irreducible] select broadcastInDim cmpi Host.gather addi constantI shapeCast andi signi Host.remsi subi
  Host.divsi constant Host.reduce Host.reduceAdd Host.divf sitofp addf subf mulf maximumf minimumf concatenate in
set_option maxRecDepth 16384 in
set_option maxHeartbeats 2000000 in
/-- The fold at the result buffer is the composed term of the arguments: each operation's result read at its own
    buffer, the named layers of the composed term opened, the two sides are one tree of vector operations (the typed
    references' transports are identities at these literal buffers). The vector operations themselves are kept closed
    while the two trees are compared: the equation never looks inside them. -/
theorem out_eq (V : Valuation τ sig (Elt Ideal)) :
    after (ops (F := Ideal)) V (main_v56 : DevRef τ sig)
      = refTerm (V (main_arg0 : DevRef τ sig)) (V (main_arg1 : DevRef τ sig)) (V (main_arg2 : DevRef τ sig)) := by
  simp (disch := decide) only [after_cons, after_nil,
      nullary_result', unary_result', binary_result', ternary_result', reshape_result', nary4_result',
      nullary_result_ne', unary_result_ne', binary_result_ne', ternary_result_ne', reshape_result_ne', nary_result_ne']
  unfold refTerm pickV okV idxV tfB stackV t0V t1V t2V t3V clipV meanB magB magV remV nineV tfV apB maskWords b256 bCol bPix
    toCol colPix unitAx cI cF
  rfl

theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp

variable (m : (ℓ : Loc nD τ sig) → Buf (Elt Ideal) ℓ) (ρ : Dev nD → PrngReg)

/-- The three argument arrays on core `c`, at their literal types. -/
abbrev argX (c : Dev nD) : FVec Ideal S256x3x224x224 .f32 := m ((c.tc : Thread nD τ).loc main_arg0)
abbrev argS (c : Dev nD) : IVec S256 32 := m ((c.tc : Thread nD τ).loc main_arg1)
abbrev argA (c : Dev nD) : IVec S36 32 := m ((c.tc : Thread nD τ).loc main_arg2)

/-- The reference terminates with its arguments unchanged. -/
theorem frame :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨(h c main_arg0).trans (arg0_eq _), (h c main_arg1).trans (arg1_eq _), (h c main_arg2).trans (arg2_eq _)⟩)
    (run_main (F := Ideal) m ρ)

/-- With every image's transform type in range, the reference terminates with its result at `outR` of the arguments,
    and the arguments unchanged. -/
theorem run
    (ht : ∀ (c : Dev nD) (b : Fin 256), tfS (argS m c (ix1 b)) = 0#32 ∨ tfS (argS m c (ix1 b)) = 1#32
      ∨ tfS (argS m c (ix1 b)) = 2#32 ∨ tfS (argS m c (ix1 b)) = 3#32) :
    θ_run (defs (F := Ideal)) (onTc (τ := τ) (main (F := Ideal))) ⟨m, fun _ => 0, ρ⟩ (fun r => ∀ c : Dev nD,
      r.2.mem ((c.tc : Thread nD τ).loc main_v56) = outR (argX m c) (argS m c) (maskWords (argA m c) (argS m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c main_v56).trans (out_eq _)).trans (refTerm_eq (argX m c) (argS m c) (argA m c) (ht c)),
      (h c main_arg0).trans (arg0_eq _), (h c main_arg1).trans (arg1_eq _), (h c main_arg2).trans (arg2_eq _)⟩)
    (run_main (F := Ideal) m ρ)

end Cert.ReferenceIdeal.RValue

end
-- ==== Proof.Literals.lean ====
/-
  The float literals the two programs and the precondition spell, as the extended reals their f32 patterns denote:
  0, 1, 2, 1/2, 10, the three divisors 128, 1176 and 150528 = 128 · 1176 of the means, and the two infinities.
-/
import Idealize.ShloMosaic.PureOps.Ideal

noncomputable section

namespace Cert.RandAug.Lit

open Idealize.ShloMosaic

theorem zero : Ideal.ofBits .f32 0x00000000#32 = ((0 : ℝ) : EReal) := by
  simp [Ideal.ofBits, Ideal.ieee]
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem ten : Ideal.ofBits .f32 0x41200000#32 = ((10 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c1176 : Ideal.ofBits .f32 0x44930000#32 = ((1176 : ℝ) : EReal) := by
  simp [Ideal.ofBits, Ideal.ieee, -EReal.coe_mul]; norm_num
theorem c150528 : Ideal.ofBits .f32 0x48130000#32 = ((150528 : ℝ) : EReal) := by
  simp [Ideal.ofBits, Ideal.ieee, -EReal.coe_mul]; norm_num
/-- All-ones exponent, zero fraction, sign set: −∞. -/
theorem ninf : Ideal.ofBits .f32 0xFF800000#32 = (⊥ : EReal) := by
  simp [Ideal.ofBits, Ideal.ieee]
/-- All-ones exponent, zero fraction, sign clear: +∞. -/
theorem pinf : Ideal.ofBits .f32 0x7F800000#32 = (⊤ : EReal) := by
  simp [Ideal.ofBits, Ideal.ieee]

end Cert.RandAug.Lit

end
-- ==== Proof.PreDecode.lean ====
/-
  What the precondition says of the arguments: every pixel is a real number (its absolute value is below +∞), and every
  op index is at least 0 and below 36.
-/
import proofs.«427089_j2173253452143_4_alg».proof.Pre_finite_inputs
import proofs.«427089_j2173253452143_4_alg».proof.Proof.Gen.Pre_finite_inputs
import proofs.«427089_j2173253452143_4_alg».proof.Proof.Literals
import Idealize.ShloMosaic.Lib.ReduceAll
import Idealize.ShloMosaic.Lib.ValueIdx
import Idealize.ShloMosaic.PureOps.Ideal.Laws

noncomputable section

namespace Cert.PreDecode

open Cert.Pre_finite_inputs Idealize.ShloMosaic Idealize.ShloMosaic.ValueIdx

/-- A rank-0 shape has exactly one index. -/
instance subsingletonIdx : Subsingleton S_.Idx := ⟨fun a b => funext fun d => d.elim0⟩

/-- The f32 pattern with all-ones exponent and zero fraction denotes +∞. -/
theorem posInf_eq_top : Ideal.ofBits .f32 0x7F800000#32 = (⊤ : EReal) := Cert.RandAug.Lit.pinf

/-- An extended real whose absolute value max x (-x) is strictly below +∞ is a real number:
    at ⊥ and at ⊤ the absolute value is ⊤, which is not below itself. -/
theorem real_of_abs_lt_top (x : EReal) (hx : Ideal.cmp .olt (max x (-x)) (⊤ : EReal) = 1#1) :
    ∃ r : ℝ, x = (r : EReal) := by
  induction x using EReal.rec with
  | bot => simp [Ideal.cmp] at hx
  | top => simp [Ideal.cmp] at hx
  | coe r => exact ⟨r, rfl⟩

/-- The precondition, read: the pixels are reals and the op indices lie in [0, 36). -/
theorem decode (X : FVec Ideal S256x3x224x224 .f32) (S : IVec S256 32) (A : IVec S36 32)
    (h : Cert.Pre_finite_inputs.fn (F := Ideal) X S A = fun _ => 1#1) :
    (∀ i, ∃ r : ℝ, X i = (r : EReal))
      ∧ ∀ j, IntOp.cmpi .sge (S j) 0#32 = 1#1 ∧ IntOp.cmpi .slt (S j) 36#32 = 1#1 := by
  have h0 := congrFun h ValueIdx.ix0
  dsimp only [Cert.Pre_finite_inputs.fn, andi] at h0
  obtain ⟨h12, h3⟩ := IntOp.andi_eq_one.1 h0
  obtain ⟨h1, h2⟩ := IntOp.andi_eq_one.1 h12
  refine ⟨fun i => ?_, fun j => ⟨?_, ?_⟩⟩
  · -- the conjunction over all pixels gives the comparison at pixel i
    have e := Host.reduce_andi_all _ _ _ _ _ h1 i
    have e' : Ideal.cmp .olt (max (X i) (-(X i))) (Ideal.ofBits .f32 0x7F800000#32) = 1#1 := e
    rw [posInf_eq_top] at e'
    exact real_of_abs_lt_top (X i) e'
  · -- the conjunction over all op indices gives the lower bound at j
    exact Host.reduce_andi_all _ _ _ _ _ h2 j
  · -- and the upper bound at j
    exact Host.reduce_andi_all _ _ _ _ _ h3 j

end Cert.PreDecode

end
-- ==== Proof.SpecAlgebra.lean ====
/-
  The algebra of one pixel. For an op index in [0, 36) the transform type is 0, 1, 2 or 3; the magnitude is a real; and
  for real `μ`, `X`, `M` the kernel's affine-then-clip form is the reference's transform, case by case:
    brightness  1·X + (μ + 0·M) = X + μ;  contrast  (1 + μ)·X + (0 + (−μ)·M) = M + (X − M)·(1 + μ);
    invert      (1 − 2μ)·X + (μ + 0·M) = (1 − μ)·X + μ·(1 − X), and the clip to [−∞, +∞] is the identity;
    gain        (1 + μ)·X + (0 + 0·M) = X·(1 + μ);  not applied  1·X + (0 + 0·M) = X, unclipped.
-/
import proofs.«427089_j2173253452143_4_alg».proof.Proof.Spec
import proofs.«427089_j2173253452143_4_alg».proof.Proof.Literals

noncomputable section

namespace Cert.RandAug

open Idealize.ShloMosaic

/-! ## The transform type of an op index in range -/

namespace Alg

/-- A one-bit word made from a Boolean is `1` exactly when the Boolean is true. -/
theorem ofBool_one {b : Bool} : BitVec.ofBool b = 1#1 ↔ b = true := by cases b <;> decide

/-- Each of the 36 words 0 … 35 has transform type 0, 1, 2 or 3 (the divisor 9 is neither 0 nor −1, so the division
    is the truncated one; on a nonnegative dividend no correction is made). -/
theorem tfS_fin : ∀ k : Fin 36, tfS (BitVec.ofNat 32 k.val) = 0#32 ∨ tfS (BitVec.ofNat 32 k.val) = 1#32
    ∨ tfS (BitVec.ofNat 32 k.val) = 2#32 ∨ tfS (BitVec.ofNat 32 k.val) = 3#32 := by
  decide +kernel

end Alg

open Alg

/-- An op index in [0, 36) has transform type 0, 1, 2 or 3. -/
theorem tfS_range (s : BitVec 32) (h0 : IntOp.cmpi .sge s 0#32 = 1#1) (h1 : IntOp.cmpi .slt s 36#32 = 1#1) :
    tfS s = 0#32 ∨ tfS s = 1#32 ∨ tfS s = 2#32 ∨ tfS s = 3#32 := by
  -- the two comparisons, read signed
  have a0 : (0#32 : BitVec 32).toInt ≤ s.toInt := by
    simpa only [IntOp.cmpi, ofBool_one, BitVec.sle_iff_toInt_le] using h0
  have a1 : s.toInt < (36#32 : BitVec 32).toInt := by
    simpa only [IntOp.cmpi, ofBool_one, BitVec.slt_iff_toInt_lt] using h1
  have e0 : (0#32 : BitVec 32).toInt = 0 := by decide
  have e1 : (36#32 : BitVec 32).toInt = 36 := by decide
  rw [e0] at a0
  rw [e1] at a1
  -- a word whose signed value lies in [0, 36) has that unsigned value too
  have hlt : s.toNat < 36 := by
    have := s.isLt
    rw [BitVec.toInt_eq_toNat_cond] at a0 a1
    split at a0 <;> omega
  have hs : s = BitVec.ofNat 32 s.toNat := by simp
  have := tfS_fin ⟨s.toNat, hlt⟩
  rw [← hs] at this
  exact this

/-! ## The literals, as the extended reals their patterns denote -/

namespace Alg

theorem fzero_eq : fzero = ((0 : ℝ) : EReal) := Lit.zero

theorem fone_eq : fone = ((1 : ℝ) : EReal) := Lit.one

theorem ftwo_eq : ftwo = ((2 : ℝ) : EReal) := Lit.two

theorem fhalf_eq : fhalf = ((1 / 2 : ℝ) : EReal) := Lit.half

theorem ften_eq : ften = ((10 : ℝ) : EReal) := Lit.ten

theorem fninf_eq : fninf = (⊥ : EReal) := Lit.ninf

theorem fpinf_eq : fpinf = (⊤ : EReal) := Lit.pinf

end Alg

/-! ## The magnitude -/

/-- The magnitude is a real number, whatever the op index: an integer over ten. -/
theorem magS_real (s : BitVec 32) : ∃ r : ℝ, magS s = (r : EReal) := by
  refine ⟨((IntOp.addi (remS s) 1#32).toInt : ℝ) * (1 / 10 : ℝ), ?_⟩
  have h10 : (10 : ℝ) ≠ 0 := by norm_num
  show Ideal.div (((IntOp.addi (remS s) 1#32).toInt : ℝ) : EReal) ften = _
  rw [ften_eq, Ideal.div_coe h10, ← EReal.coe_mul]

/-! ## One pixel -/

namespace Alg

/-- The comparisons of the transform types 0 … 3 with 0, 1, 2. -/
theorem c00 : IntOp.cmpi .eq 0#32 0#32 = 1#1 := by decide
theorem c10 : IntOp.cmpi .eq 1#32 0#32 = 0#1 := by decide
theorem c11 : IntOp.cmpi .eq 1#32 1#32 = 1#1 := by decide
theorem c20 : IntOp.cmpi .eq 2#32 0#32 = 0#1 := by decide
theorem c21 : IntOp.cmpi .eq 2#32 1#32 = 0#1 := by decide
theorem c22 : IntOp.cmpi .eq 2#32 2#32 = 1#1 := by decide
theorem c30 : IntOp.cmpi .eq 3#32 0#32 = 0#1 := by decide
theorem c31 : IntOp.cmpi .eq 3#32 1#32 = 0#1 := by decide
theorem c32 : IntOp.cmpi .eq 3#32 2#32 = 0#1 := by decide

/-- The clip flag 1 is above one half, the flag 0 is not. -/
theorem flag_on : FloatOps.cmpf .ogt fone fhalf = 1#1 := by
  rw [fone_eq, fhalf_eq]
  show Ideal.cmp .ogt _ _ = _
  have h : (((1 / 2 : ℝ) : EReal)) < ((1 : ℝ) : EReal) := by
    rw [EReal.coe_lt_coe_iff]; norm_num
  simp only [Ideal.cmp, h, decide_true, BitVec.ofBool_true]
  rfl

theorem flag_off : FloatOps.cmpf .ogt fzero fhalf = 0#1 := by
  rw [fzero_eq, fhalf_eq]
  show Ideal.cmp .ogt _ _ = _
  have h : ¬ (((1 / 2 : ℝ) : EReal)) < ((0 : ℝ) : EReal) := by
    rw [EReal.coe_lt_coe_iff]; norm_num
  simp only [Ideal.cmp, h, decide_false, BitVec.ofBool_false]
  rfl

/-- The kernel's pixel in each of the five cases, its coefficients and bounds selected. -/
theorem kElem_bright (μ X M : Ideal .f32) :
    kElem 0#32 μ 1#1 X M = min fone (max fzero (fone * X + (μ + fzero * M))) := by
  simp only [kElem, loB, hiB, aCoef, bCoef, cCoef, clipFlag, ValueIdx.select_one, ValueIdx.select_zero, c00, flag_on,
    Ideal.addf_def, Ideal.mulf_def, Ideal.maximumf_def, Ideal.minimumf_def]

theorem kElem_contr (μ X M : Ideal .f32) :
    kElem 1#32 μ 1#1 X M = min fone (max fzero ((fone + μ) * X + (fzero + (-μ) * M))) := by
  simp only [kElem, loB, hiB, aCoef, bCoef, cCoef, clipFlag, ValueIdx.select_one, ValueIdx.select_zero, c10, c11,
    flag_on, Ideal.addf_def, Ideal.mulf_def, Ideal.maximumf_def, Ideal.minimumf_def, Ideal.hostNegf_def, Ideal.negf_def]

theorem kElem_inv (μ X M : Ideal .f32) :
    kElem 2#32 μ 1#1 X M = min fpinf (max fninf ((fone - ftwo * μ) * X + (μ + fzero * M))) := by
  simp only [kElem, loB, hiB, aCoef, bCoef, cCoef, clipFlag, ValueIdx.select_one, ValueIdx.select_zero, c20, c21, c22,
    flag_off, Ideal.addf_def, Ideal.subf_def, Ideal.mulf_def, Ideal.maximumf_def, Ideal.minimumf_def]

theorem kElem_gain (μ X M : Ideal .f32) :
    kElem 3#32 μ 1#1 X M = min fone (max fzero ((fone + μ) * X + (fzero + fzero * M))) := by
  simp only [kElem, loB, hiB, aCoef, bCoef, cCoef, clipFlag, ValueIdx.select_one, ValueIdx.select_zero, c30, c31, c32,
    flag_on, Ideal.addf_def, Ideal.mulf_def, Ideal.maximumf_def, Ideal.minimumf_def]

theorem kElem_off (t : BitVec 32) (μ X M : Ideal .f32) :
    kElem t μ 0#1 X M = min fpinf (max fninf (fone * X + (fzero + fzero * M))) := by
  simp only [kElem, loB, hiB, aCoef, bCoef, cCoef, clipFlag, ValueIdx.select_zero, flag_off,
    Ideal.addf_def, Ideal.mulf_def, Ideal.maximumf_def, Ideal.minimumf_def]

/-- The reference's pixel in each of the five cases. -/
theorem rElem_bright (μ X M : Ideal .f32) : rElem 0#32 μ 1#1 X M = min fone (max fzero (X + μ)) := by
  simp only [rElem, ValueIdx.select_one, if_true, tBright, clip01, Ideal.addf_def, Ideal.maximumf_def, Ideal.minimumf_def]

theorem rElem_contr (μ X M : Ideal .f32) :
    rElem 1#32 μ 1#1 X M = min fone (max fzero (M + (X - M) * (fone + μ))) := by
  have n10 : ¬ (1#32 : BitVec 32) = 0#32 := by decide
  simp only [rElem, ValueIdx.select_one, if_true, if_neg n10, tContr, clip01, Ideal.addf_def, Ideal.subf_def, Ideal.mulf_def,
    Ideal.maximumf_def, Ideal.minimumf_def]

theorem rElem_inv (μ X M : Ideal .f32) :
    rElem 2#32 μ 1#1 X M = (fone - μ) * X + μ * (fone - X) := by
  have n20 : ¬ (2#32 : BitVec 32) = 0#32 := by decide
  have n21 : ¬ (2#32 : BitVec 32) = 1#32 := by decide
  simp only [rElem, ValueIdx.select_one, if_true, if_neg n20, if_neg n21, tInv, Ideal.addf_def, Ideal.subf_def, Ideal.mulf_def]

theorem rElem_gain (μ X M : Ideal .f32) :
    rElem 3#32 μ 1#1 X M = min fone (max fzero (X * (fone + μ))) := by
  have n30 : ¬ (3#32 : BitVec 32) = 0#32 := by decide
  have n31 : ¬ (3#32 : BitVec 32) = 1#32 := by decide
  have n32 : ¬ (3#32 : BitVec 32) = 2#32 := by decide
  simp only [rElem, ValueIdx.select_one, if_neg n30, if_neg n31, if_neg n32, tGain, clip01, Ideal.addf_def, Ideal.mulf_def,
    Ideal.maximumf_def, Ideal.minimumf_def]

theorem rElem_off (t : BitVec 32) (μ X M : Ideal .f32) : rElem t μ 0#1 X M = X := by
  simp only [rElem, ValueIdx.select_zero]

end Alg

/-- On reals, with the transform type in range, the kernel's pixel is the reference's. -/
theorem elem_agree (t : BitVec 32) (μ : Ideal .f32) (ap : BitVec 1) (X M : Ideal .f32)
    (ht : t = 0#32 ∨ t = 1#32 ∨ t = 2#32 ∨ t = 3#32)
    (hμ : ∃ r : ℝ, μ = (r : EReal)) (hX : ∃ r : ℝ, X = (r : EReal)) (hM : ∃ r : ℝ, M = (r : EReal)) :
    kElem t μ ap X M = rElem t μ ap X M := by
  obtain ⟨u, rfl⟩ := hμ
  obtain ⟨x, rfl⟩ := hX
  obtain ⟨m, rfl⟩ := hM
  by_cases hap : ap = 1#1
  · subst hap
    rcases ht with rfl | rfl | rfl | rfl
    · -- brightness: 1·x + (u + 0·m) = x + u
      rw [kElem_bright, rElem_bright, fone_eq, fzero_eq]
      simp only [← EReal.coe_mul, ← EReal.coe_add]
      congr 3; ring
    · -- contrast: (1 + u)·x + (0 + (−u)·m) = m + (x − m)·(1 + u)
      rw [kElem_contr, rElem_contr, fone_eq, fzero_eq]
      simp only [← EReal.coe_neg, ← EReal.coe_sub, ← EReal.coe_mul, ← EReal.coe_add]
      congr 3; ring
    · -- invert: (1 − 2u)·x + (u + 0·m) = (1 − u)·x + u·(1 − x), between −∞ and +∞
      rw [kElem_inv, rElem_inv, fone_eq, fzero_eq, ftwo_eq, fninf_eq, fpinf_eq]
      simp only [← EReal.coe_neg, ← EReal.coe_sub, ← EReal.coe_mul, ← EReal.coe_add]
      rw [max_eq_right bot_le, min_eq_right le_top]
      congr 1; ring
    · -- gain: (1 + u)·x + (0 + 0·m) = x·(1 + u)
      rw [kElem_gain, rElem_gain, fone_eq, fzero_eq]
      simp only [← EReal.coe_mul, ← EReal.coe_add]
      congr 3; ring
  · -- not applied: 1·x + (0 + 0·m) = x, between −∞ and +∞
    have hz : ap = 0#1 := ValueIdx.eq_zero_of_ne_one hap
    subst hz
    rw [kElem_off, rElem_off, fone_eq, fzero_eq, fninf_eq, fpinf_eq]
    simp only [← EReal.coe_mul, ← EReal.coe_add]
    rw [max_eq_right bot_le, min_eq_right le_top]
    congr 1; ring

end Cert.RandAug

end
-- ==== Proof.SpecMean.lean ====
/-
  The two means of an image agree on real pixels. Row-major, pixel (c, h, w) of image b sits at position
  (c·224 + h)·224 + w of the image and lane l of row r at position r·128 + l, so the flattening is a bijection between
  the image's pixels and the 1176 × 128 lanes; the sum of the row sums is the sum of the pixels, and dividing each row
  sum by 128 and their sum by 1176 divides the whole by 150528 — over the reals, where division distributes over a sum.
-/
import proofs.«427089_j2173253452143_4_alg».proof.Proof.Spec
import proofs.«427089_j2173253452143_4_alg».proof.Proof.Literals
import Idealize.ShloMosaic.Lib.Pipeline.Value
import Idealize.ShloMosaic.PureOps.Ideal.Laws

noncomputable section

open scoped BigOperators

namespace Cert.RandAug

open Idealize.ShloMosaic Idealize.ShloMosaic.ValueIdx

namespace Mean

/-! ## The three divisors and the initial value, as extended reals -/

/-- The pattern of 128.0 denotes the real 128. -/
theorem f128_eq : f128 = ((128 : ℝ) : EReal) := Lit.c128

/-- The pattern of 1176.0 denotes the real 1176. -/
theorem f1176_eq : f1176 = ((1176 : ℝ) : EReal) := Lit.c1176

/-- The pattern of 150528.0 denotes the real 150528. -/
theorem f150528_eq : f150528 = ((150528 : ℝ) : EReal) := Lit.c150528

/-- The pattern of +0.0 denotes 0. -/
theorem fzero_eq : fzero = 0 := Ideal.ofBits_zero_f32

/-! ## Sums of reals inside the extended reals -/

/-- A finite sum of reals, each read as an extended real, is the real sum read as an extended real. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The flattening keeps the image -/

/-- Row-major, position ((b·1176 + r)·128 + l) of the flattened array is position (((b'·3 + c)·224 + h)·224 + w) of the
    images with b' = b, since 3·224·224 = 1176·128: the flattening matches an index with one of the same image. -/
theorem reshape_img (h : SX.ShapeCasts SF) (j : SF.Idx) : ((Shape.reshapeEquiv h j) 0 : Nat) = (j 0 : Nat) := by
  have e := Shape.rowMajor_reshapeEquiv h j
  rw [Shape.rowMajor_val_four, Shape.rowMajor_val_three] at e
  have e' : ((((Shape.reshapeEquiv h j) 0 : Nat) * 3 + ((Shape.reshapeEquiv h j) 1 : Nat)) * 224
      + ((Shape.reshapeEquiv h j) 2 : Nat)) * 224 + ((Shape.reshapeEquiv h j) 3 : Nat)
      = ((j 0 : Nat) * 1176 + (j 1 : Nat)) * 128 + (j 2 : Nat) := e
  have h1 : ((Shape.reshapeEquiv h j) 1 : Nat) < 3 := ((Shape.reshapeEquiv h j) 1).isLt
  have h2 : ((Shape.reshapeEquiv h j) 2 : Nat) < 224 := ((Shape.reshapeEquiv h j) 2).isLt
  have h3 : ((Shape.reshapeEquiv h j) 3 : Nat) < 224 := ((Shape.reshapeEquiv h j) 3).isLt
  have g1 : (j 1 : Nat) < 1176 := (j 1).isLt
  have g2 : (j 2 : Nat) < 128 := (j 2).isLt
  omega

/-- An index of the images reduces to image b exactly when its leading coordinate is b. -/
theorem drop_eq_iff (i : SX.Idx) (b : Fin 256) : redX.drop i = ix1 b ↔ (i 0 : Nat) = (b : Nat) := by
  simp [funext_iff, Fin.ext_iff, Fin.forall_fin_one, redX.drop_apply_val_of_eq i 0 0]

/-- The lanes of image b's 1176 rows are, through the flattening, exactly the pixels of image b: the sum over rows and
    lanes is the sum over the pixels that reduce to b. -/
theorem sum_rows_lanes (x : SX.Idx → ℝ) (h : SX.ShapeCasts SF) (b : Fin 256) :
    ∑ r : Fin 1176, ∑ l : Fin 128, x (Shape.reshapeEquiv h (ix3 b r l))
      = ∑ i ∈ Finset.univ.filter (fun i => redX.drop i = ix1 b), x i := by
  rw [← Fintype.sum_prod_type']
  refine Finset.sum_bij' (fun p _ => Shape.reshapeEquiv h (ix3 b p.1 p.2))
    (fun i _ => (((Shape.reshapeEquiv h).symm i) 1, ((Shape.reshapeEquiv h).symm i) 2)) ?_ ?_ ?_ ?_ ?_
  · intro p _
    rw [Finset.mem_filter, drop_eq_iff]
    exact ⟨Finset.mem_univ _, reshape_img h (ix3 b p.1 p.2)⟩
  · intro i _; exact Finset.mem_univ _
  · intro p _
    rw [Equiv.symm_apply_apply]
  · intro i hi
    rw [Finset.mem_filter, drop_eq_iff] at hi
    have hb : ((Shape.reshapeEquiv h).symm i) 0 = b := by
      apply Fin.ext
      have := reshape_img h ((Shape.reshapeEquiv h).symm i)
      rw [Equiv.apply_symm_apply] at this
      exact this.symm.trans hi.2
    have := eq_ix3 ((Shape.reshapeEquiv h).symm i)
    rw [hb] at this
    exact (congrArg (Shape.reshapeEquiv h) this.symm).trans (Equiv.apply_symm_apply _ _)
  · intro p _; rfl

end Mean

/-- On real pixels the kernel's mean of row means over the flattened image is the reference's mean, a real. -/
theorem mean_agree (X : SX.Idx → Ideal .f32) (hX : ∀ i, ∃ r : ℝ, X i = (r : EReal)) (h : SX.ShapeCasts SF) (b : Fin 256) :
    kMean (shapeCast SF X h) b = rMean X b ∧ ∃ r : ℝ, rMean X b = (r : EReal) := by
  choose x hx using hX
  obtain rfl : X = fun i => ((x i : ℝ) : EReal) := funext hx
  have hk : kMean (shapeCast SF (fun i => ((x i : ℝ) : EReal)) h) b
      = (((∑ i ∈ Finset.univ.filter (fun i => redX.drop i = ix1 b), x i) * (1 / 150528) : ℝ) : EReal) := by
    unfold kMean
    simp only [Ideal.divf_def, Mean.f128_eq, Mean.f1176_eq]
    rw [Ideal.div_coe (by norm_num : (1176 : ℝ) ≠ 0)]
    have hrow : ∀ r : Fin 1176,
        Ideal.div (∑ l : Fin 128, shapeCast SF (fun i => ((x i : ℝ) : EReal)) h (ix3 b r l)) ((128 : ℝ) : EReal)
          = (((∑ l : Fin 128, x (Shape.reshapeEquiv h (ix3 b r l))) * (1 / 128) : ℝ) : EReal) := by
      intro r
      rw [Ideal.div_coe (by norm_num : (128 : ℝ) ≠ 0), EReal.coe_mul, ← Mean.coe_sum]
      rfl
    rw [Finset.sum_congr rfl (fun r _ => hrow r), Mean.coe_sum, ← EReal.coe_mul, ← Mean.sum_rows_lanes x h b]
    congr 1
    rw [← Finset.sum_mul, mul_assoc]
    norm_num
  have hr : rMean (fun i => ((x i : ℝ) : EReal)) b
      = (((∑ i ∈ Finset.univ.filter (fun i => redX.drop i = ix1 b), x i) * (1 / 150528) : ℝ) : EReal) := by
    unfold rMean
    rw [Ideal.hostDivf_def, Mean.f150528_eq, Ideal.div_coe (by norm_num : (150528 : ℝ) ≠ 0)]
    show (fzero + ∑ i ∈ Finset.univ.filter (fun i => redX.drop i = ix1 b), ((x i : ℝ) : EReal)) * _ = _
    rw [Mean.fzero_eq, zero_add, Mean.coe_sum, ← EReal.coe_mul]
  exact ⟨hk.trans hr.symm, _, hr⟩

end Cert.RandAug

end
-- ==== Proof.lean ====
/-
  RandAug op-select: the kernel `clip (a·x + (b₀ + c·mean), lo, hi)` with per-image coefficients against jnp's
  stack-of-four-transforms reference, equal over the extended reals for finite pixels and op indices in [0, 36).

  Both programs decode each image's op index the same way (type ⌊s / 9⌋, magnitude ((s mod 9) + 1) / 10, applied bit
  from the mask). The kernel's result is `outK` of the arguments (its host prefix builds the coefficient planes, its
  body applies them, the blocks tile the array), the reference's is `outR` (for types in range its take_along_axis picks
  the named transform); the two arrays agree pixel by pixel: the image means agree on real pixels, and on reals each
  affine-then-clip case is the reference's transform. The range of the op index is used exactly once: it puts the type
  in 0 … 3, where the reference's pick is defined and is the kernel's where-chain.
-/
import proofs.«427089_j2173253452143_4_alg».proof.Defs
import proofs.«427089_j2173253452143_4_alg».proof.Proof.Gen.Kernel.Frame
import proofs.«427089_j2173253452143_4_alg».proof.Proof.Gen.KernelIdeal.Frame
import proofs.«427089_j2173253452143_4_alg».proof.Proof.Gen.ReferenceIdeal
import proofs.«427089_j2173253452143_4_alg».proof.Proof.Gen.Pre_finite_inputs
import proofs.«427089_j2173253452143_4_alg».proof.Proof.KernelValue
import proofs.«427089_j2173253452143_4_alg».proof.Proof.RefValue
import proofs.«427089_j2173253452143_4_alg».proof.Proof.PreDecode
import proofs.«427089_j2173253452143_4_alg».proof.Proof.SpecAlgebra
import proofs.«427089_j2173253452143_4_alg».proof.Proof.SpecMean
import Idealize.ShloMosaic.Adequacy
import Idealize.ShloMosaic.Init

noncomputable section

namespace Cert.Proof

open Idealize.ShloMosaic Idealize.ShloMosaic.TcCoe Idealize.SL.Sem Idealize.ShloMosaic.ValueIdx Cert.RandAug

/-- The two result arrays agree: real pixels give equal real means, op indices in [0, 36) a type in range and a real
    magnitude, and there the two pixel forms agree. -/
theorem out_agree (X : SX.Idx → Ideal .f32) (S G : SB.Idx → BitVec 32) (h : SX.ShapeCasts SF)
    (hX : ∀ i, ∃ r : ℝ, X i = (r : EReal))
    (hS : ∀ j, IntOp.cmpi .sge (S j) 0#32 = 1#1 ∧ IntOp.cmpi .slt (S j) 36#32 = 1#1) :
    outK X S G h = outR X S G := by
  funext i
  unfold outK outR
  obtain ⟨hm, hr⟩ := mean_agree X hX h (img i)
  rw [hm]
  exact elem_agree _ _ _ _ _ (tfS_range _ (hS _).1 (hS _).2) (magS_real _) (hX i) hr

/-- The two programs gather the mask words by the same operations. -/
theorem mask_bridge (A : IVec Cert.KernelIdeal.S36 32) (S : IVec Cert.KernelIdeal.S256 32) :
    Cert.KernelIdeal.KPlanes.maskWords A S = Cert.ReferenceIdeal.RefRead.maskWords A S := rfl

theorem algebraic : Cert.algebraic_KernelIdeal_ReferenceIdeal := by
  intro m ρ m' ρ' hpre hagree
  have hdec := fun c => Cert.PreDecode.decode _ _ _ (hpre c)
  have hS' : ∀ c, Cert.ReferenceIdeal.RValue.argS m' c = Cert.KernelIdeal.KPlanes.argS m c := fun c => (hagree c).2.1
  refine ⟨_, Cert.KernelIdeal.KValue.run m ρ, ?_⟩
  refine (θ_run (Cert.ReferenceIdeal.defs (F := Ideal)) _ _).mono (fun r h c => ⟨(h c).1.trans ?_, (h c).2⟩)
    (Cert.ReferenceIdeal.RValue.run m' ρ' (fun c b => by
      rw [hS' c]; exact tfS_range _ ((hdec c).2 _).1 ((hdec c).2 _).2))
  have hX' : Cert.ReferenceIdeal.RValue.argX m' c = Cert.KernelIdeal.KPlanes.argX m c := (hagree c).1
  have hA' : Cert.ReferenceIdeal.RValue.argA m' c = Cert.KernelIdeal.KPlanes.argA m c := (hagree c).2.2
  rw [hX', hS' c, hA', ← mask_bridge]
  exact (out_agree _ _ _ _ (hdec c).1 (hdec c).2).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.RValue.frame m ρ,
    trivial,
    algebraic⟩

end Cert.Proof

end
